-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x500 : Shape := ⟨3, ![16, 3, 500]⟩
abbrev S16x100000 : Shape := ⟨2, ![16, 100000]⟩
abbrev S3200000 : Shape := ⟨1, ![3200000]⟩
abbrev S_ : Shape := ⟨0, ![]⟩

class Facts : Prop where
  bcast_S_S16x3x500 : S_.BroadcastsInDim S16x3x500 (![] : Fin 0 → Fin S16x3x500.rank)
  reducesTo_S16x3x500_S_d0_1_2 : S16x3x500.ReducesTo [0, 1, 2] S_
  h_S_ : 0 < S_.numel
  bcast_S_S16x100000 : S_.BroadcastsInDim S16x100000 (![] : Fin 0 → Fin S16x100000.rank)
  reducesTo_S16x100000_S_d0_1 : S16x100000.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg3 : IVec S3200000 32) (main_arg4 : IVec S3200000 32) (main_v15 : IVec S_ 1) (main_c_5 : IVec S_ 32) : IVec S_ 1 :=
  let main_v16 : IVec S3200000 32 := broadcastInDim S3200000 ![] bcast_S_S3200000 main_c_5
  let main_v17 : IVec S3200000 1 := cmpi .sge main_arg3 main_v16
  let main_c_6 : IVec S_ 32 := constantI S_ 32 500#32
  let main_v18 : IVec S3200000 32 := broadcastInDim S3200000 ![] bcast_S_S3200000 main_c_6
  let main_v19 : IVec S3200000 1 := cmpi .slt main_arg3 main_v18
  let main_v20 : IVec S3200000 1 := andi main_v17 main_v19
  let main_c_7 : IVec S_ 1 := constantI S_ 1 1#1
  let main_v21 : IVec S_ 1 := (fun x v => Host.reduce IntOp.andi x v reducesTo_S3200000_S_d0 h_S_) main_v20 main_c_7
  let main_v22 : IVec S_ 1 := andi main_v15 main_v21
  let main_c_8 : IVec S_ 32 := constantI S_ 32 0#32
  let main_v23 : IVec S3200000 32 := broadcastInDim S3200000 ![] bcast_S_S3200000 main_c_8
  let main_v24 : IVec S3200000 1 := cmpi .sge main_arg4 main_v23
  let main_c_9 : IVec S_ 32 := constantI S_ 32 100000#32
  let main_v25 : IVec S3200000 32 := broadcastInDim S3200000 ![] bcast_S_S3200000 main_c_9
  let main_v26 : IVec S3200000 1 := cmpi .slt main_arg4 main_v25
  let main_v27 : IVec S3200000 1 := andi main_v24 main_v26
  let main_c_10 : IVec S_ 1 := constantI S_ 1 1#1
  let main_v28 : IVec S_ 1 := (fun x v => Host.reduce IntOp.andi x v reducesTo_S3200000_S_d0 h_S_) main_v27 main_c_10
  let main_v29 : IVec S_ 1 := andi main_v22 main_v28
  main_v29

def fn {F : FTy → Type} [FloatOps F] (main_arg0 : FVec F S16x3x500 .f32) (main_arg1 : FVec F S16x100000 .f32) (main_arg2 : IVec S3200000 32) (main_arg3 : IVec S3200000 32) (main_arg4 : IVec S3200000 32) : IVec S_ 1 :=
  let main_v0 : FVec F S16x3x500 .f32 := Host.absf main_arg0
  let main_cst : FVec F S_ .f32 := constant S_ .f32 0x7F800000#32
  let main_v1 : FVec F S16x3x500 .f32 := broadcastInDim S16x3x500 ![] bcast_S_S16x3x500 main_cst
  let main_v2 : IVec S16x3x500 1 := cmpf .olt main_v0 main_v1
  let main_c : IVec S_ 1 := constantI S_ 1 1#1
  let main_v3 : IVec S_ 1 := (fun x v => Host.reduce IntOp.andi x v reducesTo_S16x3x500_S_d0_1_2 h_S_) main_v2 main_c
  let main_v4 : FVec F S16x100000 .f32 := Host.absf main_arg1
  let main_cst_0 : FVec F S_ .f32 := constant S_ .f32 0x7F800000#32
  let main_v5 : FVec F S16x100000 .f32 := broadcastInDim S16x100000 ![] bcast_S_S16x100000 main_cst_0
  let main_v6 : IVec S16x100000 1 := cmpf .olt main_v4 main_v5
  let main_c_1 : IVec S_ 1 := constantI S_ 1 1#1
  let main_v7 : IVec S_ 1 := (fun x v => Host.reduce IntOp.andi x v reducesTo_S16x100000_S_d0_1 h_S_) main_v6 main_c_1
  let main_v8 : IVec S_ 1 := andi main_v3 main_v7
  let main_c_2 : IVec S_ 32 := constantI S_ 32 0#32
  let main_v9 : IVec S3200000 32 := broadcastInDim S3200000 ![] bcast_S_S3200000 main_c_2
  let main_v10 : IVec S3200000 1 := cmpi .sge main_arg2 main_v9
  let main_c_3 : IVec S_ 32 := constantI S_ 32 100000#32
  let main_v11 : IVec S3200000 32 := broadcastInDim S3200000 ![] bcast_S_S3200000 main_c_3
  let main_v12 : IVec S3200000 1 := cmpi .slt main_arg2 main_v11
  let main_v13 : IVec S3200000 1 := andi main_v10 main_v12
  let main_c_4 : IVec S_ 1 := constantI S_ 1 1#1
  let main_v14 : IVec S_ 1 := (fun x v => Host.reduce IntOp.andi x v reducesTo_S3200000_S_d0 h_S_) main_v13 main_c_4
  let main_v15 : IVec S_ 1 := andi main_v8 main_v14
  let main_c_5 : IVec S_ 32 := constantI S_ 32 0#32
  fn_part1 (F := F) main_arg3 main_arg4 main_v15 main_c_5
-- ==== Kernel.lean ====
abbrev S16x3x500 : Shape := ⟨3, ![16, 3, 500]⟩
abbrev S16x100000 : Shape := ⟨2, ![16, 100000]⟩
abbrev S3200000 : Shape := ⟨1, ![3200000]⟩
abbrev S16x1x500 : Shape := ⟨3, ![16, 1, 500]⟩
abbrev S16x500 : Shape := ⟨2, ![16, 500]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S16x3200000 : Shape := ⟨2, ![16, 3200000]⟩
abbrev S8x100000 : Shape := ⟨2, ![8, 100000]⟩
abbrev S8 : Shape := ⟨1, ![8]⟩
abbrev S8x1 : Shape := ⟨2, ![8, 1]⟩
abbrev S16x1x100000 : Shape := ⟨3, ![16, 1, 100000]⟩
abbrev S16x4x100000 : Shape := ⟨3, ![16, 4, 100000]⟩

abbrev nBuf : Space → Nat
  | .hbm => 193
  | .vmem => 12
  | .smem => 0
  | _ => 0

abbrev hbmTy0_0 (i : Nat) : BufTy := match i % 128 with
  | 0 => ⟨S16x3x500, .f32⟩
  | 1 => ⟨S16x100000, .f32⟩
  | 2 => ⟨S3200000, .i32⟩
  | 3 => ⟨S3200000, .i32⟩
  | 4 => ⟨S3200000, .i32⟩
  | 5 => ⟨S16x1x500, .f32⟩
  | 6 => ⟨S16x500, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S1, .i32⟩
  | 16 => ⟨S_, .i32⟩
  | 17 => ⟨S3200000x1, .i32⟩
  | 18 => ⟨S3200000x1, .i1⟩
  | 19 => ⟨S1x1, .i32⟩
  | 20 => ⟨S3200000x1, .i32⟩
  | 21 => ⟨S3200000x1, .i1⟩
  | 22 => ⟨S3200000x1, .i1⟩
  | 23 => ⟨S_, .i1⟩
  | 24 => ⟨S3200000, .i1⟩
  | 25 => ⟨S16x3200000, .f32⟩
  | 26 => ⟨S16x3200000, .i1⟩
  | 27 => ⟨S_, .f32⟩
  | 28 => ⟨S16x3200000, .f32⟩
  | 29 => ⟨S16x3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S1, .i32⟩
  | 39 => ⟨S_, .i32⟩
  | 40 => ⟨S3200000x1, .i32⟩
  | 41 => ⟨S3200000x1, .i1⟩
  | 42 => ⟨S1x1, .i32⟩
  | 43 => ⟨S3200000x1, .i32⟩
  | 44 => ⟨S3200000x1, .i1⟩
  | 45 => ⟨S3200000x1, .i1⟩
  | 46 => ⟨S_, .i1⟩
  | 47 => ⟨S3200000, .i1⟩
  | 48 => ⟨S16x3200000, .f32⟩
  | 49 => ⟨S16x3200000, .i1⟩
  | 50 => ⟨S_, .f32⟩
  | 51 => ⟨S16x3200000, .f32⟩
  | 52 => ⟨S16x3200000, .f32⟩
  | 53 => ⟨S_, .f32⟩
  | 54 => ⟨S16x100000, .f32⟩
  | 55 => ⟨S16x3200000, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S16x100000, .f32⟩
  | 65 => ⟨S16x100000, .f32⟩
  | 66 => ⟨S16x1x500, .f32⟩
  | 67 => ⟨S16x500, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S1, .i32⟩
  | 77 => ⟨S_, .i32⟩
  | 78 => ⟨S3200000x1, .i32⟩
  | 79 => ⟨S3200000x1, .i1⟩
  | 80 => ⟨S1x1, .i32⟩
  | 81 => ⟨S3200000x1, .i32⟩
  | 82 => ⟨S3200000x1, .i1⟩
  | 83 => ⟨S3200000x1, .i1⟩
  | 84 => ⟨S_, .i1⟩
  | 85 => ⟨S3200000, .i1⟩
  | 86 => ⟨S16x3200000, .f32⟩
  | 87 => ⟨S16x3200000, .i1⟩
  | 88 => ⟨S_, .f32⟩
  | 89 => ⟨S16x3200000, .f32⟩
  | 90 => ⟨S16x3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S1, .i32⟩
  | 100 => ⟨S_, .i32⟩
  | 101 => ⟨S3200000x1, .i32⟩
  | 102 => ⟨S3200000x1, .i1⟩
  | 103 => ⟨S1x1, .i32⟩
  | 104 => ⟨S3200000x1, .i32⟩
  | 105 => ⟨S3200000x1, .i1⟩
  | 106 => ⟨S3200000x1, .i1⟩
  | 107 => ⟨S_, .i1⟩
  | 108 => ⟨S3200000, .i1⟩
  | 109 => ⟨S16x3200000, .f32⟩
  | 110 => ⟨S16x3200000, .i1⟩
  | 111 => ⟨S_, .f32⟩
  | 112 => ⟨S16x3200000, .f32⟩
  | 113 => ⟨S16x3200000, .f32⟩
  | 114 => ⟨S_, .f32⟩
  | 115 => ⟨S16x100000, .f32⟩
  | 116 => ⟨S16x3200000, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S16x100000, .f32⟩
  | 126 => ⟨S16x100000, .f32⟩
  | 127 => ⟨S16x1x500, .f32⟩
  | _ => ⟨S16x3x500, .f32⟩

abbrev hbmTy0_1 (i : Nat) : BufTy := match i % 128 with
  | 0 => ⟨S16x500, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S1, .i32⟩
  | 10 => ⟨S_, .i32⟩
  | 11 => ⟨S3200000x1, .i32⟩
  | 12 => ⟨S3200000x1, .i1⟩
  | 13 => ⟨S1x1, .i32⟩
  | 14 => ⟨S3200000x1, .i32⟩
  | 15 => ⟨S3200000x1, .i1⟩
  | 16 => ⟨S3200000x1, .i1⟩
  | 17 => ⟨S_, .i1⟩
  | 18 => ⟨S3200000, .i1⟩
  | 19 => ⟨S16x3200000, .f32⟩
  | 20 => ⟨S16x3200000, .i1⟩
  | 21 => ⟨S_, .f32⟩
  | 22 => ⟨S16x3200000, .f32⟩
  | 23 => ⟨S16x3200000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S1, .i32⟩
  | 33 => ⟨S_, .i32⟩
  | 34 => ⟨S3200000x1, .i32⟩
  | 35 => ⟨S3200000x1, .i1⟩
  | 36 => ⟨S1x1, .i32⟩
  | 37 => ⟨S3200000x1, .i32⟩
  | 38 => ⟨S3200000x1, .i1⟩
  | 39 => ⟨S3200000x1, .i1⟩
  | 40 => ⟨S_, .i1⟩
  | 41 => ⟨S3200000, .i1⟩
  | 42 => ⟨S16x3200000, .f32⟩
  | 43 => ⟨S16x3200000, .i1⟩
  | 44 => ⟨S_, .f32⟩
  | 45 => ⟨S16x3200000, .f32⟩
  | 46 => ⟨S16x3200000, .f32⟩
  | 47 => ⟨S_, .f32⟩
  | 48 => ⟨S16x100000, .f32⟩
  | 49 => ⟨S16x3200000, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S16x100000, .f32⟩
  | 59 => ⟨S16x100000, .f32⟩
  | 60 => ⟨S16x1x100000, .f32⟩
  | 61 => ⟨S16x1x100000, .f32⟩
  | 62 => ⟨S16x1x100000, .f32⟩
  | 63 => ⟨S16x1x100000, .f32⟩
  | 64 => ⟨S16x4x100000, .f32⟩
  | _ => ⟨S16x3x500, .f32⟩

abbrev hbmTy (i : Nat) : BufTy := match i / 128 with
  | 0 => hbmTy0_0 i
  | 1 => hbmTy0_1 i
  | _ => ⟨S16x3x500, .f32⟩

abbrev bufTy : (tb : Table) → Fin (tcTables nBuf tb) → BufTy
  | .hbm, ⟨i, _⟩ => hbmTy i
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | .local _ .vmem, ⟨6, _⟩ => ⟨S8x100000, .f32⟩
  | .local _ .vmem, ⟨7, _⟩ => ⟨S8x100000, .f32⟩
  | .local _ .vmem, ⟨8, _⟩ => ⟨S8x100000, .f32⟩
  | .local _ .vmem, ⟨9, _⟩ => ⟨S8x100000, .f32⟩
  | .local _ .vmem, ⟨10, _⟩ => ⟨S8x100000, .f32⟩
  | .local _ .vmem, ⟨11, _⟩ => ⟨S8x100000, .f32⟩
  | _, _ => ⟨S16x3x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v3 : Ref sig .tc := ⟨.hbm, 52, rfl⟩
abbrev main_cst : Ref sig .tc := ⟨.hbm, 53, rfl⟩
abbrev main_v4 : Ref sig .tc := ⟨.hbm, 54, rfl⟩
abbrev main_v5 : Ref sig .tc := ⟨.hbm, 55, rfl⟩
abbrev main_c : Ref sig .tc := ⟨.hbm, 56, rfl⟩
abbrev main_v6 : Ref sig .tc := ⟨.hbm, 57, rfl⟩
abbrev main_v7 : Ref sig .tc := ⟨.hbm, 58, rfl⟩
abbrev main_c_0 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v16 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v17 : Ref sig .tc := ⟨.hbm, 113, rfl⟩
abbrev main_cst_1 : Ref sig .tc := ⟨.hbm, 114, rfl⟩
abbrev main_v18 : Ref sig .tc := ⟨.hbm, 115, rfl⟩
abbrev main_v19 : Ref sig .tc := ⟨.hbm, 116, rfl⟩
abbrev main_c_2 : Ref sig .tc := ⟨.hbm, 117, rfl⟩
abbrev main_v20 : Ref sig .tc := ⟨.hbm, 118, rfl⟩
abbrev main_v21 : Ref sig .tc := ⟨.hbm, 119, rfl⟩
abbrev main_c_3 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v30 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_call5_cst : Ref sig .tc := ⟨.hbm, 172, rfl⟩
abbrev main_call5_v15 : Ref sig .tc := ⟨.hbm, 173, rfl⟩
abbrev main_v31 : Ref sig .tc := ⟨.hbm, 174, rfl⟩
abbrev main_cst_4 : Ref sig .tc := ⟨.hbm, 175, rfl⟩
abbrev main_v32 : Ref sig .tc := ⟨.hbm, 176, rfl⟩
abbrev main_v33 : Ref sig .tc := ⟨.hbm, 177, rfl⟩
abbrev main_c_5 : Ref sig .tc := ⟨.hbm, 178, rfl⟩
abbrev main_v34 : Ref sig .tc := ⟨.hbm, 179, rfl⟩
abbrev main_v35 : Ref sig .tc := ⟨.hbm, 180, rfl⟩
abbrev main_c_6 : Ref sig .tc := ⟨.hbm, 181, rfl⟩
abbrev main_v36 : Ref sig .tc := ⟨.hbm, 182, rfl⟩
abbrev main_v37 : Ref sig .tc := ⟨.hbm, 183, rfl⟩
abbrev main_v38 : Ref sig .tc := ⟨.hbm, 184, rfl⟩
abbrev main_v39 : Ref sig .tc := ⟨.hbm, 185, rfl⟩
abbrev main_v40 : Ref sig .tc := ⟨.hbm, 186, rfl⟩
abbrev main_v41 : Ref sig .tc := ⟨.hbm, 187, rfl⟩
abbrev main_v42 : Ref sig .tc := ⟨.hbm, 188, rfl⟩
abbrev main_v43 : Ref sig .tc := ⟨.hbm, 189, rfl⟩
abbrev main_v44 : Ref sig .tc := ⟨.hbm, 190, rfl⟩
abbrev main_v45 : Ref sig .tc := ⟨.hbm, 191, rfl⟩
abbrev main_v46 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x100000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x100000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x100000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S16x3x500_S16x1x500_0_0_0 : S16x3x500.Slices ![0, 0, 0] S16x1x500
  shapeCasts_S16x1x500_S16x500 : S16x1x500.ShapeCasts S16x500
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S16x3200000_1 : S3200000.BroadcastsInDim S16x3200000 (![1] : Fin 1 → Fin S16x3200000.rank)
  bcast_S_S16x3200000 : S_.BroadcastsInDim S16x3200000 (![] : Fin 0 → Fin S16x3200000.rank)
  bcast_S_S16x100000 : S_.BroadcastsInDim S16x100000 (![] : Fin 0 → Fin S16x100000.rank)
  inb_S8x100000_S8x100000_0_0 : ∀ a, (![0, 0] : Fin 2 → Nat) a + S8x100000.size a ≤ S8x100000.size a
  h_S8x100000 : 0 < S8x100000.numel
  shapeCasts_S8x100000_S8x100000 : S8x100000.ShapeCasts S8x100000
  reduces_S8x100000_S8 : S8x100000.Reduces [1] S8
  shapeCasts_S8_S8x1 : S8.ShapeCasts S8x1
  broadcasts_S8x1_S8x100000 : S8x1.Broadcasts S8x100000
  slices_S16x3x500_S16x1x500_0_1_0 : S16x3x500.Slices ![0, 1, 0] S16x1x500
  slices_S16x3x500_S16x1x500_0_2_0 : S16x3x500.Slices ![0, 2, 0] S16x1x500
  bcast_S16x100000_S16x1x100000_0_2 : S16x100000.BroadcastsInDim S16x1x100000 (![0, 2] : Fin 2 → Fin S16x1x100000.rank)
  concatenates_S16x1x100000_S16x1x100000_S16x1x100000_S16x1x100000_S16x4x100000_d1 : Shape.Concatenates [S16x1x100000, S16x1x100000, S16x1x100000, S16x1x100000] S16x4x100000 1
  gather_S16x100000_S3200000x1_S16x3200000_0_1_n_n_1_1_161_wf : GatherDims.WF S16x100000 S3200000x1 S16x3200000 [0] [1] [] [1] [] 1 ![16, 1]
  gather_S16x500_S3200000x1_S16x3200000_0_1_n_n_1_1_161_wf : GatherDims.WF S16x500 S3200000x1 S16x3200000 [0] [1] [] [1] [] 1 ![16, 1]
  scatter_S16x100000_S3200000x1_S16x3200000_0_1_1_1_wf : ScatterDims.WF S16x100000 S3200000x1 S16x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S16x100000.size a
  hwx0_0 : ∀ i : grid0.Coords, EltTy.bits .f32 = 32 ∨ (Rect.block (s := S16x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S16x100000.size a
  hwx0_1 : ∀ i : grid0.Coords, EltTy.bits .f32 = 32 ∨ (Rect.block (s := S16x100000) S8x100000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x100000.size a ≤ S16x100000.size a
  hwx1_0 : ∀ i : grid1.Coords, EltTy.bits .f32 = 32 ∨ (Rect.block (s := S16x100000) S8x100000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x100000.size a ≤ S16x100000.size a
  hwx1_1 : ∀ i : grid1.Coords, EltTy.bits .f32 = 32 ∨ (Rect.block (s := S16x100000) S8x100000.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x100000.size a ≤ S16x100000.size a
  hwx2_0 : ∀ i : grid2.Coords, EltTy.bits .f32 = 32 ∨ (Rect.block (s := S16x100000) S8x100000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x100000.size a ≤ S16x100000.size a
  hwx2_1 : ∀ i : grid2.Coords, EltTy.bits .f32 = 32 ∨ (Rect.block (s := S16x100000) S8x100000.size (cc2_transform_1 i) (hinb2_1 i)).WholeWords (EltTy.packing .f32)

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def gather_S16x500_S3200000x1_S16x3200000_0_1_n_n_1_1_161 : GatherDims S16x500 S3200000x1 S16x3200000 where
  offsetDims := [0]
  collapsedSliceDims := [1]
  operandBatchingDims := []
  startIndicesBatchingDims := []
  startIndexMap := [1]
  indexVectorDim := 1
  sliceSizes := ![16, 1]
  wf := gather_S16x500_S3200000x1_S16x3200000_0_1_n_n_1_1_161_wf
def scatter_S16x100000_S3200000x1_S16x3200000_0_1_1_1 : ScatterDims S16x100000 S3200000x1 S16x3200000 where
  updateWindowDims := [0]
  insertedWindowDims := [1]
  scatterDimsToOperandDims := [1]
  indexVectorDim := 1
  wf := scatter_S16x100000_S3200000x1_S16x3200000_0_1_1_1_wf

abbrev win0_0 : Pipeline.Window sig grid0 :=
  Pipeline.Window.ofSpec (Memref.whole main_v12) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8x100000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v26) S8x100000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S8x100000.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v40) S8x100000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S8x100000.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S16x3x500 : Shape := ⟨3, ![16, 3, 500]⟩
abbrev S16x100000 : Shape := ⟨2, ![16, 100000]⟩
abbrev S3200000 : Shape := ⟨1, ![3200000]⟩
abbrev S16x1x500 : Shape := ⟨3, ![16, 1, 500]⟩
abbrev S16x500 : Shape := ⟨2, ![16, 500]⟩
abbrev S_ : Shape := ⟨0, ![]⟩
abbrev S3200000x1 : Shape := ⟨2, ![3200000, 1]⟩
abbrev S16x3200000 : Shape := ⟨2, ![16, 3200000]⟩
abbrev S3200000x16 : Shape := ⟨2, ![3200000, 16]⟩
abbrev S100000x16 : Shape := ⟨2, ![100000, 16]⟩
abbrev S16 : Shape := ⟨1, ![16]⟩
abbrev S16x1 : Shape := ⟨2, ![16, 1]⟩
abbrev S16x1x100000 : Shape := ⟨3, ![16, 1, 100000]⟩
abbrev S16x4x100000 : Shape := ⟨3, ![16, 4, 100000]⟩

abbrev nBuf : Space → Nat
  | .hbm => 115
  | .vmem => 0
  | .smem => 0
  | _ => 0

abbrev bufTy : (tb : Table) → Fin (tcTables nBuf tb) → BufTy
  | .hbm, ⟨0, _⟩ => ⟨S16x3x500, .f32⟩
  | .hbm, ⟨1, _⟩ => ⟨S16x100000, .f32⟩
  | .hbm, ⟨2, _⟩ => ⟨S3200000, .i32⟩
  | .hbm, ⟨3, _⟩ => ⟨S3200000, .i32⟩
  | .hbm, ⟨4, _⟩ => ⟨S3200000, .i32⟩
  | .hbm, ⟨5, _⟩ => ⟨S16x1x500, .f32⟩
  | .hbm, ⟨6, _⟩ => ⟨S16x500, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S16x3200000, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S16x3200000, .f32⟩
  | .hbm, ⟨25, _⟩ => ⟨S16x3200000, .f32⟩
  | .hbm, ⟨26, _⟩ => ⟨S3200000x16, .f32⟩
  | .hbm, ⟨27, _⟩ => ⟨S_, .f32⟩
  | .hbm, ⟨28, _⟩ => ⟨S100000x16, .f32⟩
  | .hbm, ⟨29, _⟩ => ⟨S3200000x1, .i32⟩
  | .hbm, ⟨30, _⟩ => ⟨S100000x16, .f32⟩
  | .hbm, ⟨31, _⟩ => ⟨S16x100000, .f32⟩
  | .hbm, ⟨32, _⟩ => ⟨S_, .f32⟩
  | .hbm, ⟨33, _⟩ => ⟨S16, .f32⟩
  | .hbm, ⟨34, _⟩ => ⟨S16x1, .f32⟩
  | .hbm, ⟨35, _⟩ => ⟨S_, .f32⟩
  | .hbm, ⟨36, _⟩ => ⟨S16x1, .f32⟩
  | .hbm, ⟨37, _⟩ => ⟨S16x1, .f32⟩
  | .hbm, ⟨38, _⟩ => ⟨S16x100000, .f32⟩
  | .hbm, ⟨39, _⟩ => ⟨S16x100000, .f32⟩
  | .hbm, ⟨40, _⟩ => ⟨S16x1x500, .f32⟩
  | .hbm, ⟨41, _⟩ => ⟨S16x500, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S16x3200000, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S16x3200000, .f32⟩
  | .hbm, ⟨60, _⟩ => ⟨S16x3200000, .f32⟩
  | .hbm, ⟨61, _⟩ => ⟨S3200000x16, .f32⟩
  | .hbm, ⟨62, _⟩ => ⟨S_, .f32⟩
  | .hbm, ⟨63, _⟩ => ⟨S100000x16, .f32⟩
  | .hbm, ⟨64, _⟩ => ⟨S3200000x1, .i32⟩
  | .hbm, ⟨65, _⟩ => ⟨S100000x16, .f32⟩
  | .hbm, ⟨66, _⟩ => ⟨S16x100000, .f32⟩
  | .hbm, ⟨67, _⟩ => ⟨S_, .f32⟩
  | .hbm, ⟨68, _⟩ => ⟨S16, .f32⟩
  | .hbm, ⟨69, _⟩ => ⟨S16x1, .f32⟩
  | .hbm, ⟨70, _⟩ => ⟨S_, .f32⟩
  | .hbm, ⟨71, _⟩ => ⟨S16x1, .f32⟩
  | .hbm, ⟨72, _⟩ => ⟨S16x1, .f32⟩
  | .hbm, ⟨73, _⟩ => ⟨S16x100000, .f32⟩
  | .hbm, ⟨74, _⟩ => ⟨S16x100000, .f32⟩
  | .hbm, ⟨75, _⟩ => ⟨S16x1x500, .f32⟩
  | .hbm, ⟨76, _⟩ => ⟨S16x500, .f32⟩
  | .hbm, ⟨77, _⟩ => ⟨S_, .i32⟩
  | .hbm, ⟨78, _⟩ => ⟨S3200000, .i32⟩
  | .hbm, ⟨79, _⟩ => ⟨S3200000, .i1⟩
  | .hbm, ⟨80, _⟩ => ⟨S_, .i32⟩
  | .hbm, ⟨81, _⟩ => ⟨S3200000, .i32⟩
  | .hbm, ⟨82, _⟩ => ⟨S3200000, .i32⟩
  | .hbm, ⟨83, _⟩ => ⟨S3200000, .i32⟩
  | .hbm, ⟨84, _⟩ => ⟨S3200000x1, .i32⟩
  | .hbm, ⟨85, _⟩ => ⟨S16x3200000, .f32⟩
  | .hbm, ⟨86, _⟩ => ⟨S_, .i32⟩
  | .hbm, ⟨87, _⟩ => ⟨S3200000, .i32⟩
  | .hbm, ⟨88, _⟩ => ⟨S3200000, .i1⟩
  | .hbm, ⟨89, _⟩ => ⟨S_, .i32⟩
  | .hbm, ⟨90, _⟩ => ⟨S3200000, .i32⟩
  | .hbm, ⟨91, _⟩ => ⟨S3200000, .i32⟩
  | .hbm, ⟨92, _⟩ => ⟨S3200000, .i32⟩
  | .hbm, ⟨93, _⟩ => ⟨S3200000x1, .i32⟩
  | .hbm, ⟨94, _⟩ => ⟨S16x3200000, .f32⟩
  | .hbm, ⟨95, _⟩ => ⟨S16x3200000, .f32⟩
  | .hbm, ⟨96, _⟩ => ⟨S3200000x16, .f32⟩
  | .hbm, ⟨97, _⟩ => ⟨S_, .f32⟩
  | .hbm, ⟨98, _⟩ => ⟨S100000x16, .f32⟩
  | .hbm, ⟨99, _⟩ => ⟨S3200000x1, .i32⟩
  | .hbm, ⟨100, _⟩ => ⟨S100000x16, .f32⟩
  | .hbm, ⟨101, _⟩ => ⟨S16x100000, .f32⟩
  | .hbm, ⟨102, _⟩ => ⟨S_, .f32⟩
  | .hbm, ⟨103, _⟩ => ⟨S16, .f32⟩
  | .hbm, ⟨104, _⟩ => ⟨S16x1, .f32⟩
  | .hbm, ⟨105, _⟩ => ⟨S_, .f32⟩
  | .hbm, ⟨106, _⟩ => ⟨S16x1, .f32⟩
  | .hbm, ⟨107, _⟩ => ⟨S16x1, .f32⟩
  | .hbm, ⟨108, _⟩ => ⟨S16x100000, .f32⟩
  | .hbm, ⟨109, _⟩ => ⟨S16x100000, .f32⟩
  | .hbm, ⟨110, _⟩ => ⟨S16x1x100000, .f32⟩
  | .hbm, ⟨111, _⟩ => ⟨S16x1x100000, .f32⟩
  | .hbm, ⟨112, _⟩ => ⟨S16x1x100000, .f32⟩
  | .hbm, ⟨113, _⟩ => ⟨S16x1x100000, .f32⟩
  | .hbm, ⟨114, _⟩ => ⟨S16x4x100000, .f32⟩
  | _, _ => ⟨S16x3x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_14 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_17 : Ref sig .tc := ⟨.hbm, 102, rfl⟩
abbrev main_v78 : Ref sig .tc := ⟨.hbm, 103, rfl⟩
abbrev main_v79 : Ref sig .tc := ⟨.hbm, 104, rfl⟩
abbrev main_cst_18 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  slices_S16x3x500_S16x1x500_0_0_0 : S16x3x500.Slices ![0, 0, 0] S16x1x500
  shapeCasts_S16x1x500_S16x500 : S16x1x500.ShapeCasts S16x500
  bcast_S_S3200000 : S_.BroadcastsInDim S3200000 (![] : Fin 0 → Fin S3200000.rank)
  bcast_S3200000_S3200000x1_0 : S3200000.BroadcastsInDim S3200000x1 (![0] : Fin 1 → Fin S3200000x1.rank)
  transposes_S16x3200000_S3200000x16_1_0 : S16x3200000.Transposes [1, 0] S3200000x16
  bcast_S_S100000x16 : S_.BroadcastsInDim S100000x16 (![] : Fin 0 → Fin S100000x16.rank)
  transposes_S100000x16_S16x100000_1_0 : S100000x16.Transposes [1, 0] S16x100000
  reducesTo_S16x100000_S16_d1 : S16x100000.ReducesTo [1] S16
  h_S_ : 0 < S_.numel
  bcast_S16_S16x1_0 : S16.BroadcastsInDim S16x1 (![0] : Fin 1 → Fin S16x1.rank)
  bcast_S_S16x1 : S_.BroadcastsInDim S16x1 (![] : Fin 0 → Fin S16x1.rank)
  bcast_S16x1_S16x100000_0_1 : S16x1.BroadcastsInDim S16x100000 (![0, 1] : Fin 2 → Fin S16x100000.rank)
  slices_S16x3x500_S16x1x500_0_1_0 : S16x3x500.Slices ![0, 1, 0] S16x1x500
  slices_S16x3x500_S16x1x500_0_2_0 : S16x3x500.Slices ![0, 2, 0] S16x1x500
  bcast_S16x100000_S16x1x100000_0_2 : S16x100000.BroadcastsInDim S16x1x100000 (![0, 2] : Fin 2 → Fin S16x1x100000.rank)
  concatenates_S16x1x100000_S16x1x100000_S16x1x100000_S16x1x100000_S16x4x100000_d1 : Shape.Concatenates [S16x1x100000, S16x1x100000, S16x1x100000, S16x1x100000] S16x4x100000 1
  gather_S16x100000_S3200000x1_S16x3200000_0_1_n_n_1_1_161_wf : GatherDims.WF S16x100000 S3200000x1 S16x3200000 [0] [1] [] [1] [] 1 ![16, 1]
  gather_S16x500_S3200000x1_S16x3200000_0_1_n_n_1_1_161_wf : GatherDims.WF S16x500 S3200000x1 S16x3200000 [0] [1] [] [1] [] 1 ![16, 1]
  scatter_S100000x16_S3200000x1_S3200000x16_1_0_0_1_wf : ScatterDims.WF S100000x16 S3200000x1 S3200000x16 [1] [0] [0] 1

variable [Facts₀]

def gather_S16x100000_S3200000x1_S16x3200000_0_1_n_n_1_1_161 : GatherDims S16x100000 S3200000x1 S16x3200000 where
  offsetDims := [0]
  collapsedSliceDims := [1]
  operandBatchingDims := []
  startIndicesBatchingDims := []
  startIndexMap := [1]
  indexVectorDim := 1
  sliceSizes := ![16, 1]
  wf := gather_S16x100000_S3200000x1_S16x3200000_0_1_n_n_1_1_161_wf
def gather_S16x500_S3200000x1_S16x3200000_0_1_n_n_1_1_161 : GatherDims S16x500 S3200000x1 S16x3200000 where
  offsetDims := [0]
  collapsedSliceDims := [1]
  operandBatchingDims := []
  startIndicesBatchingDims := []
  startIndexMap := [1]
  indexVectorDim := 1
  sliceSizes := ![16, 1]
  wf := gather_S16x500_S3200000x1_S16x3200000_0_1_n_n_1_1_161_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.NormLaunchB0.lean ====
/-
  The normalizing kernel of launch 0, as the pipeline runs it on a grid of two points over blocks of 8 rows: at each
  point the body reads the whole 8 × 100000 input block and stores, over the whole output block, the block's entries
  divided by (their row's sum plus a constant). Stated at any contents `V` of the core's buffers when the launch is
  entered: what each window's staging buffer holds after the body, the body's triple, and the pipeline's body obligation.
-/
import proofs.«415690_j12378095747627_3_alg».proof.Proof.Gen.Kernel.Launch
import proofs.«415690_j12378095747627_3_alg».proof.Proof.Gen.Kernel.Skeleton
import proofs.«415690_j12378095747627_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose input array is `V`'s and
    whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 8 × 100000 block. -/
abbrev whole0 : Rect S8x100000 := Rect.unit (s := S8x100000) ![0, 0] S8x100000.size inb_S8x100000_S8x100000_0_0

/-- The output block after the body, from the input block: the one store over the whole block. -/
def out0_1 (x0 : Vec F S8x100000 .f32) : Vec F S8x100000 .f32 :=
  View.canon [⟨whole0, k0_pay1 (View.ld x0 whole0)⟩]

/-- The one store covers the block. -/
theorem cover0_1 (p0 : Vec F S8x100000 .f32) (y : S8x100000.Idx) :
    ∃ pc ∈ ([⟨whole0, p0⟩] : List (View.Piece (Elt F) S8x100000 .f32)), y ∈ pc.1.set :=
  View.cover_of_tiled [⟨whole0, p0⟩] S8x100000.size (by rfl) y

set_option maxHeartbeats 1000000 in
/-- The body on whole staging buffers, the input at contents `x0` and the output at anything, runs to the
    continuation with the input as it was and the output at `out0_1 x0`. -/
theorem sound_kernel0 (c : Dev nD) (E : Set ℕ) (i : grid0.Coords) (arg1 : Memref sig .tc .vmem S8x100000 .f32) (harg1 : arg1.IsWhole)
    (arg2 : Memref sig .tc .vmem S8x100000 .f32) (harg2 : arg2.IsWhole) (x0 : Vec F S8x100000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the launch finds them; after the body at point `t` the input's
    buffer at its block and the output's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.NormLaunchB1.lean ====
/-
  The normalizing kernel of launch 1, as the pipeline runs it on a grid of two points over blocks of 8 rows: at each
  point the body reads the whole 8 × 100000 input block and stores, over the whole output block, the block's entries
  divided by (their row's sum plus a constant). Stated at any contents `V` of the core's buffers when the launch is
  entered: what each window's staging buffer holds after the body, the body's triple, and the pipeline's body obligation.
-/
import proofs.«415690_j12378095747627_3_alg».proof.Proof.Gen.Kernel.Launch
import proofs.«415690_j12378095747627_3_alg».proof.Proof.Gen.Kernel.Skeleton
import proofs.«415690_j12378095747627_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose input array is `V`'s and
    whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole 8 × 100000 block. -/
abbrev whole1 : Rect S8x100000 := Rect.unit (s := S8x100000) ![0, 0] S8x100000.size inb_S8x100000_S8x100000_0_0

/-- The output block after the body, from the input block: the one store over the whole block. -/
def out1_1 (x0 : Vec F S8x100000 .f32) : Vec F S8x100000 .f32 :=
  View.canon [⟨whole1, k1_pay1 (View.ld x0 whole1)⟩]

/-- The one store covers the block. -/
theorem cover1_1 (p0 : Vec F S8x100000 .f32) (y : S8x100000.Idx) :
    ∃ pc ∈ ([⟨whole1, p0⟩] : List (View.Piece (Elt F) S8x100000 .f32)), y ∈ pc.1.set :=
  View.cover_of_tiled [⟨whole1, p0⟩] S8x100000.size (by rfl) y

set_option maxHeartbeats 1000000 in
/-- The body on whole staging buffers, the input at contents `x0` and the output at anything, runs to the
    continuation with the input as it was and the output at `out1_1 x0`. -/
theorem sound_kernel1 (c : Dev nD) (E : Set ℕ) (i : grid1.Coords) (arg1 : Memref sig .tc .vmem S8x100000 .f32) (harg1 : arg1.IsWhole)
    (arg2 : Memref sig .tc .vmem S8x100000 .f32) (harg2 : arg2.IsWhole) (x0 : Vec F S8x100000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the launch finds them; after the body at point `t` the input's
    buffer at its block and the output's at `out1_1` of it; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.NormLaunchB2.lean ====
/-
  The normalizing kernel of launch 2, as the pipeline runs it on a grid of two points over blocks of 8 rows: at each
  point the body reads the whole 8 × 100000 input block and stores, over the whole output block, the block's entries
  divided by (their row's sum plus a constant). Stated at any contents `V` of the core's buffers when the launch is
  entered: what each window's staging buffer holds after the body, the body's triple, and the pipeline's body obligation.
-/
import proofs.«415690_j12378095747627_3_alg».proof.Proof.Gen.Kernel.Launch
import proofs.«415690_j12378095747627_3_alg».proof.Proof.Gen.Kernel.Skeleton
import proofs.«415690_j12378095747627_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point, for any proof data whose input array is `V`'s and
    whose body leaves the input block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole 8 × 100000 block. -/
abbrev whole2 : Rect S8x100000 := Rect.unit (s := S8x100000) ![0, 0] S8x100000.size inb_S8x100000_S8x100000_0_0

/-- The output block after the body, from the input block: the one store over the whole block. -/
def out2_1 (x0 : Vec F S8x100000 .f32) : Vec F S8x100000 .f32 :=
  View.canon [⟨whole2, k2_pay1 (View.ld x0 whole2)⟩]

/-- The one store covers the block. -/
theorem cover2_1 (p0 : Vec F S8x100000 .f32) (y : S8x100000.Idx) :
    ∃ pc ∈ ([⟨whole2, p0⟩] : List (View.Piece (Elt F) S8x100000 .f32)), y ∈ pc.1.set :=
  View.cover_of_tiled [⟨whole2, p0⟩] S8x100000.size (by rfl) y

set_option maxHeartbeats 1000000 in
/-- The body on whole staging buffers, the input at contents `x0` and the output at anything, runs to the
    continuation with the input as it was and the output at `out2_1 x0`. -/
theorem sound_kernel2 (c : Dev nD) (E : Set ℕ) (i : grid2.Coords) (arg1 : Memref sig .tc .vmem S8x100000 .f32) (harg1 : arg1.IsWhole)
    (arg2 : Memref sig .tc .vmem S8x100000 .f32) (harg2 : arg2.IsWhole) (x0 : Vec F S8x100000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__normalize_kernel i arg1 harg1 arg2 harg2) K := by
  simp only [cc2__normalize_kernel_eq_skeleton]; unfold cc2__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The pipeline's proof data on core `c`: the arrays as the launch finds them; after the body at point `t` the input's
    buffer at its block and the output's at `out2_1` of it; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.WalkRunBits.lean ====
/-
  The whole program's run, launch by launch: the contents of the core's buffers at every boundary between the host
  stretches and the three normalizing launches, each launch's output array at what its write-backs leave, and the
  run itself — every weakly fair execution ends with the result buffer at the last boundary's contents and the five
  argument arrays as launched.
-/
import proofs.«415690_j12378095747627_3_alg».proof.Proof.NormLaunchB0
import proofs.«415690_j12378095747627_3_alg».proof.Proof.NormLaunchB1
import proofs.«415690_j12378095747627_3_alg».proof.Proof.NormLaunchB2
import proofs.«415690_j12378095747627_3_alg».proof.Proof.RegionsValBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references. -/
abbrev tcv (W : Dev nD → Valuation τ sig (Elt F)) : (c : Dev nD) → (b : Ref sig .tc) → Buf (Elt F) ((c : Thread nD τ).loc b) :=
  fun c b => W c b

/-! ## The boundaries' contents: the launch memory, each host stretch applied, each launch's output array replaced -/

/-- Entering launch 0: the launch memory after the first four host stretches. -/
abbrev B4 (c : Dev nD) : Valuation τ sig (Elt F) := V4 m c
/-- What launch 0's write-backs leave in its output array. -/
def left0 (c : Dev nD) : Buf (Elt F) ((c : Thread nD τ).loc main_v13) := (dat0 (tcv (B4 m)) c).arrAt 1 cfg0.N
/-- Leaving launch 0. -/
abbrev B5 (c : Dev nD) : Valuation τ sig (Elt F) := Function.update (B4 m c) (Proc.devRef .tc main_v13) (left0 m c)
/-- Entering launch 1: four more host stretches. -/
abbrev B9 (c : Dev nD) : Valuation τ sig (Elt F) :=
  StableHlo.after hostOps1_3 (StableHlo.after hostOps1_2 (StableHlo.after hostOps1_1 (StableHlo.after hostOps1 (B5 m c))))
def left1 (c : Dev nD) : Buf (Elt F) ((c : Thread nD τ).loc main_v27) := (dat1 (tcv (B9 m)) c).arrAt 1 cfg1.N
abbrev B10 (c : Dev nD) : Valuation τ sig (Elt F) := Function.update (B9 m c) (Proc.devRef .tc main_v27) (left1 m c)
/-- Entering launch 2. -/
abbrev B14 (c : Dev nD) : Valuation τ sig (Elt F) :=
  StableHlo.after hostOps2_3 (StableHlo.after hostOps2_2 (StableHlo.after hostOps2_1 (StableHlo.after hostOps2 (B10 m c))))
def left2 (c : Dev nD) : Buf (Elt F) ((c : Thread nD τ).loc main_v41) := (dat2 (tcv (B14 m)) c).arrAt 1 cfg2.N
abbrev B15 (c : Dev nD) : Valuation τ sig (Elt F) := Function.update (B14 m c) (Proc.devRef .tc main_v41) (left2 m c)
/-- The end: the last host stretch stacks the four entity distributions. -/
abbrev B16 (c : Dev nD) : Valuation τ sig (Elt F) := StableHlo.after hostOps3 (B15 m c)

/-- What the launches leave, as the family the generated boundary contents are written over. -/
def left : Outs (F := F) := fun j r c =>
  match j with
  | 5 => B5 m c (Proc.devRef .tc r)
  | 10 => B10 m c (Proc.devRef .tc r)
  | 15 => B15 m c (Proc.devRef .tc r)
  | _ => V0 m c (Proc.devRef .tc r)

theorem V5_eq (c : Dev nD) : V5 m (left m) c = B5 m c := by
  show Function.update (V4 m c) (Proc.devRef .tc main_v13) (Function.update (V4 m c) (Proc.devRef .tc main_v13) (left0 m c) (Proc.devRef .tc main_v13)) = _
  rw [Function.update_self]
theorem V9_eq (c : Dev nD) : V9 m (left m) c = B9 m c := by
  show StableHlo.after hostOps1_3 (StableHlo.after hostOps1_2 (StableHlo.after hostOps1_1 (StableHlo.after hostOps1 (V5 m (left m) c)))) = _
  rw [V5_eq]
theorem V10_eq (c : Dev nD) : V10 m (left m) c = B10 m c := by
  show Function.update (V9 m (left m) c) (Proc.devRef .tc main_v27) (Function.update (B9 m c) (Proc.devRef .tc main_v27) (left1 m c) (Proc.devRef .tc main_v27)) = _
  rw [Function.update_self, V9_eq]
theorem V14_eq (c : Dev nD) : V14 m (left m) c = B14 m c := by
  show StableHlo.after hostOps2_3 (StableHlo.after hostOps2_2 (StableHlo.after hostOps2_1 (StableHlo.after hostOps2 (V10 m (left m) c)))) = _
  rw [V10_eq]
theorem V15_eq (c : Dev nD) : V15 m (left m) c = B15 m c := by
  show Function.update (V14 m (left m) c) (Proc.devRef .tc main_v41) (Function.update (B14 m c) (Proc.devRef .tc main_v41) (left2 m c) (Proc.devRef .tc main_v41)) = _
  rw [Function.update_self, V14_eq]
theorem V16_eq (c : Dev nD) : V16 m (left m) c = B16 m c := by
  show StableHlo.after hostOps3 (V15 m (left m) c) = _
  rw [V15_eq]

/-- At launch 0's exit its output array holds what the pipeline's write-backs leave and its input array is as entered, -/
theorem hF0 (c : Dev nD) (w : Fin cfg0.W) : (dat0 (tcv (B4 m)) c).arrAt w cfg0.N = tcv (B5 m) c (Pipeline.arrRef spec0 w) := by
  match w with
  | ⟨0, _⟩ =>
    refine (((dat0 (tcv (B4 m)) c).arrAt_in 0 rfl _).trans (A_eq0 (tcv (B4 m)) c 0)).trans ?_
    show B4 m c (Proc.devRef .tc main_v12) = Function.update (B4 m c) (Proc.devRef .tc main_v13) (left0 m c) (Proc.devRef .tc main_v12)
    rw [Function.update_of_ne (StableHlo.devRef_ne_of_ne (by decide))]
  | ⟨1, _⟩ =>
    show left0 m c = Function.update (B4 m c) (Proc.devRef .tc main_v13) (left0 m c) (Proc.devRef .tc main_v13)
    rw [Function.update_self]
/-- and every other buffer is as entered. -/
theorem hrest0 (c : Dev nD) : ∀ b, b ∉ Finset.univ.image (Pipeline.arrRef spec0) → tcv (B5 m) c b = tcv (B4 m) c b := fun b hb => by
  have hne : b ≠ main_v13 := fun e => hb (Finset.mem_image.mpr ⟨1, Finset.mem_univ _, e.symm⟩)
  show Function.update (B4 m c) (Proc.devRef .tc main_v13) (left0 m c) (Proc.devRef .tc b) = B4 m c (Proc.devRef .tc b)
  rw [Function.update_of_ne (StableHlo.devRef_ne_of_ne hne)]

/-- At launch 1's exit its output array holds what the pipeline's write-backs leave and its input array is as entered, -/
theorem hF1 (c : Dev nD) (w : Fin cfg1.W) : (dat1 (tcv (B9 m)) c).arrAt w cfg1.N = tcv (B10 m) c (Pipeline.arrRef spec1 w) := by
  match w with
  | ⟨0, _⟩ =>
    refine (((dat1 (tcv (B9 m)) c).arrAt_in 0 rfl _).trans (A_eq1 (tcv (B9 m)) c 0)).trans ?_
    show B9 m c (Proc.devRef .tc main_v26) = Function.update (B9 m c) (Proc.devRef .tc main_v27) (left1 m c) (Proc.devRef .tc main_v26)
    rw [Function.update_of_ne (StableHlo.devRef_ne_of_ne (by decide))]
  | ⟨1, _⟩ =>
    show left1 m c = Function.update (B9 m c) (Proc.devRef .tc main_v27) (left1 m c) (Proc.devRef .tc main_v27)
    rw [Function.update_self]
/-- and every other buffer is as entered. -/
theorem hrest1 (c : Dev nD) : ∀ b, b ∉ Finset.univ.image (Pipeline.arrRef spec1) → tcv (B10 m) c b = tcv (B9 m) c b := fun b hb => by
  have hne : b ≠ main_v27 := fun e => hb (Finset.mem_image.mpr ⟨1, Finset.mem_univ _, e.symm⟩)
  show Function.update (B9 m c) (Proc.devRef .tc main_v27) (left1 m c) (Proc.devRef .tc b) = B9 m c (Proc.devRef .tc b)
  rw [Function.update_of_ne (StableHlo.devRef_ne_of_ne hne)]

/-- At launch 2's exit its output array holds what the pipeline's write-backs leave and its input array is as entered, -/
theorem hF2 (c : Dev nD) (w : Fin cfg2.W) : (dat2 (tcv (B14 m)) c).arrAt w cfg2.N = tcv (B15 m) c (Pipeline.arrRef spec2 w) := by
  match w with
  | ⟨0, _⟩ =>
    refine (((dat2 (tcv (B14 m)) c).arrAt_in 0 rfl _).trans (A_eq2 (tcv (B14 m)) c 0)).trans ?_
    show B14 m c (Proc.devRef .tc main_v40) = Function.update (B14 m c) (Proc.devRef .tc main_v41) (left2 m c) (Proc.devRef .tc main_v40)
    rw [Function.update_of_ne (StableHlo.devRef_ne_of_ne (by decide))]
  | ⟨1, _⟩ =>
    show left2 m c = Function.update (B14 m c) (Proc.devRef .tc main_v41) (left2 m c) (Proc.devRef .tc main_v41)
    rw [Function.update_self]
/-- and every other buffer is as entered. -/
theorem hrest2 (c : Dev nD) : ∀ b, b ∉ Finset.univ.image (Pipeline.arrRef spec2) → tcv (B15 m) c b = tcv (B14 m) c b := fun b hb => by
  have hne : b ≠ main_v41 := fun e => hb (Finset.mem_image.mpr ⟨1, Finset.mem_univ _, e.symm⟩)
  show Function.update (B14 m c) (Proc.devRef .tc main_v41) (left2 m c) (Proc.devRef .tc b) = B14 m c (Proc.devRef .tc b)
  rw [Function.update_of_ne (StableHlo.devRef_ne_of_ne hne)]

/-! ## The proof data family and what rides beside the buffers -/

/-- Every launch's proof data, each at its entry contents. -/
def pdats : (p : Fin 3) → (c : Dev nD) → Dat τ (Elt F) Unit ℕ (UR sig nD τ) ℕ (cfgs p) c
  | ⟨0, _⟩ => fun c => dat0 (tcv (B4 m)) c
  | ⟨1, _⟩ => fun c => dat1 (tcv (B9 m)) c
  | ⟨2, _⟩ => fun c => dat2 (tcv (B14 m)) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Launch 0 as a segment: entered with every unscoped buffer at `B4`, left at `B5`; its two arrays are split
    out of the unscoped buffers at entry and put back at exit, the generator register passes through the class
    invariant, nothing is owed, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (B4 m)) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (tcv (B4 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (B4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (B4 m) c) (tcv (B5 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `B9`, left at `B10`; its two arrays are split
    out of the unscoped buffers at entry and put back at exit, the generator register passes through the class
    invariant, nothing is owed, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (B9 m)) c).loose
  hwaits := Pipeline.hwaits_of_owed_zero _ _ _ _ L lv 1 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec1 c (tcv (B9 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (B9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (B9 m) c) (tcv (B10 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `B14`, left at `B15`; its two arrays are split
    out of the unscoped buffers at entry and put back at exit, the generator register passes through the class
    invariant, nothing is owed, and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (B14 m)) c).loose
  hwaits := Pipeline.hwaits_of_owed_zero _ _ _ _ L lv 2 fun _ _ => rfl
  pre c := iprop(StableHlo.held (c : Thread nD τ) (Pipeline.ucRefs τ sig) (B14 m c) ∗ R c)
  post c := iprop(StableHlo.held (c : Thread nD τ) (Pipeline.ucRefs τ sig) (B15 m c) ∗ R c)
  X c := iprop(∃ r, prngReg c r)
  Y c := iprop(∃ r, prngReg c r)
  Z c := Pipeline.unscopedRest (Ix := Unit) (Name := ℕ) (U := UR sig nD τ) (Lvl := ℕ) spec2 c (tcv (B14 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (B14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (B14 m) c) (tcv (B15 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates without a fault, with the
    result buffer at the last boundary's contents and the five argument arrays as launched. -/
theorem run (ρ : Dev nD → PrngReg) :
    θ_run defs (onTc (τ := τ) (main (F := F))) ⟨m, fun _ => 0, ρ⟩ (fun r => ∀ c : Dev nD,
      r.2.mem ((c.tc : Thread nD τ).loc main_v46) = B16 m c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := frame_cond_val (F := F) m emb₁ () 𝒱₀ L lv (fun _ _ => rfl) ρ (left m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => by rw [V5_eq]; exact .rfl)
    (R1 := reg1 m) (hpre1 := fun c => by rw [V9_eq]; exact .rfl) (hpost1 := fun c => by rw [V10_eq]; exact .rfl)
    (R2 := reg2 m) (hpre2 := fun c => by rw [V14_eq]; exact .rfl) (hpost2 := fun c => by rw [V15_eq]; exact .rfl)
  refine (θ_run defs _ _).mono (fun r hr c => ?_) h
  have := hr c
  rw [V16_eq] at this
  exact this

end Cert.Kernel.Hand

end
-- ==== Proof.NormLaunch0.lean ====
/-
  The normalizing kernel of launch 0, as the pipeline runs it on a grid of two points over blocks of 8 rows: at each
  point the body reads the whole 8 × 100000 input block and stores, over the whole output block, the block's entries
  divided by (their row's sum plus a constant). Stated at any contents `V` of the core's buffers when the launch is
  entered: what each window's staging buffer holds after the body, the body's triple, and the pipeline's body obligation.
-/
import proofs.«415690_j12378095747627_3_alg».proof.Proof.Gen.KernelIdeal.Launch
import proofs.«415690_j12378095747627_3_alg».proof.Proof.Gen.KernelIdeal.Skeleton
import proofs.«415690_j12378095747627_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose input array is `V`'s and
    whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 8 × 100000 block. -/
abbrev whole0 : Rect S8x100000 := Rect.unit (s := S8x100000) ![0, 0] S8x100000.size inb_S8x100000_S8x100000_0_0

/-- The output block after the body, from the input block: the one store over the whole block. -/
def out0_1 (x0 : Vec F S8x100000 .f32) : Vec F S8x100000 .f32 :=
  View.canon [⟨whole0, k0_pay1 (View.ld x0 whole0)⟩]

/-- The one store covers the block. -/
theorem cover0_1 (p0 : Vec F S8x100000 .f32) (y : S8x100000.Idx) :
    ∃ pc ∈ ([⟨whole0, p0⟩] : List (View.Piece (Elt F) S8x100000 .f32)), y ∈ pc.1.set :=
  View.cover_of_tiled [⟨whole0, p0⟩] S8x100000.size (by rfl) y

set_option maxHeartbeats 1000000 in
/-- The body on whole staging buffers, the input at contents `x0` and the output at anything, runs to the
    continuation with the input as it was and the output at `out0_1 x0`. -/
theorem sound_kernel0 (c : Dev nD) (E : Set ℕ) (i : grid0.Coords) (arg1 : Memref sig .tc .vmem S8x100000 .f32) (harg1 : arg1.IsWhole)
    (arg2 : Memref sig .tc .vmem S8x100000 .f32) (harg2 : arg2.IsWhole) (x0 : Vec F S8x100000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The pipeline's proof data on core `c`: the arrays as the launch finds them; after the body at point `t` the input's
    buffer at its block and the output's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.NormLaunch1.lean ====
/-
  The normalizing kernel of launch 1, as the pipeline runs it on a grid of two points over blocks of 8 rows: at each
  point the body reads the whole 8 × 100000 input block and stores, over the whole output block, the block's entries
  divided by (their row's sum plus a constant). Stated at any contents `V` of the core's buffers when the launch is
  entered: what each window's staging buffer holds after the body, the body's triple, and the pipeline's body obligation.
-/
import proofs.«415690_j12378095747627_3_alg».proof.Proof.Gen.KernelIdeal.Launch
import proofs.«415690_j12378095747627_3_alg».proof.Proof.Gen.KernelIdeal.Skeleton
import proofs.«415690_j12378095747627_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point, for any proof data whose input array is `V`'s and
    whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes: the whole 8 × 100000 block. -/
abbrev whole1 : Rect S8x100000 := Rect.unit (s := S8x100000) ![0, 0] S8x100000.size inb_S8x100000_S8x100000_0_0

/-- The output block after the body, from the input block: the one store over the whole block. -/
def out1_1 (x0 : Vec F S8x100000 .f32) : Vec F S8x100000 .f32 :=
  View.canon [⟨whole1, k1_pay1 (View.ld x0 whole1)⟩]

/-- The one store covers the block. -/
theorem cover1_1 (p0 : Vec F S8x100000 .f32) (y : S8x100000.Idx) :
    ∃ pc ∈ ([⟨whole1, p0⟩] : List (View.Piece (Elt F) S8x100000 .f32)), y ∈ pc.1.set :=
  View.cover_of_tiled [⟨whole1, p0⟩] S8x100000.size (by rfl) y

set_option maxHeartbeats 1000000 in
/-- The body on whole staging buffers, the input at contents `x0` and the output at anything, runs to the
    continuation with the input as it was and the output at `out1_1 x0`. -/
theorem sound_kernel1 (c : Dev nD) (E : Set ℕ) (i : grid1.Coords) (arg1 : Memref sig .tc .vmem S8x100000 .f32) (harg1 : arg1.IsWhole)
    (arg2 : Memref sig .tc .vmem S8x100000 .f32) (harg2 : arg2.IsWhole) (x0 : Vec F S8x100000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The pipeline's proof data on core `c`: the arrays as the launch finds them; after the body at point `t` the input's
    buffer at its block and the output's at `out1_1` of it; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.NormLaunch2.lean ====
/-
  The normalizing kernel of launch 2, as the pipeline runs it on a grid of two points over blocks of 8 rows: at each
  point the body reads the whole 8 × 100000 input block and stores, over the whole output block, the block's entries
  divided by (their row's sum plus a constant). Stated at any contents `V` of the core's buffers when the launch is
  entered: what each window's staging buffer holds after the body, the body's triple, and the pipeline's body obligation.
-/
import proofs.«415690_j12378095747627_3_alg».proof.Proof.Gen.KernelIdeal.Launch
import proofs.«415690_j12378095747627_3_alg».proof.Proof.Gen.KernelIdeal.Skeleton
import proofs.«415690_j12378095747627_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point, for any proof data whose input array is `V`'s and
    whose body leaves the input block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole 8 × 100000 block. -/
abbrev whole2 : Rect S8x100000 := Rect.unit (s := S8x100000) ![0, 0] S8x100000.size inb_S8x100000_S8x100000_0_0

/-- The output block after the body, from the input block: the one store over the whole block. -/
def out2_1 (x0 : Vec F S8x100000 .f32) : Vec F S8x100000 .f32 :=
  View.canon [⟨whole2, k2_pay1 (View.ld x0 whole2)⟩]

/-- The one store covers the block. -/
theorem cover2_1 (p0 : Vec F S8x100000 .f32) (y : S8x100000.Idx) :
    ∃ pc ∈ ([⟨whole2, p0⟩] : List (View.Piece (Elt F) S8x100000 .f32)), y ∈ pc.1.set :=
  View.cover_of_tiled [⟨whole2, p0⟩] S8x100000.size (by rfl) y

set_option maxHeartbeats 1000000 in
/-- The body on whole staging buffers, the input at contents `x0` and the output at anything, runs to the
    continuation with the input as it was and the output at `out2_1 x0`. -/
theorem sound_kernel2 (c : Dev nD) (E : Set ℕ) (i : grid2.Coords) (arg1 : Memref sig .tc .vmem S8x100000 .f32) (harg1 : arg1.IsWhole)
    (arg2 : Memref sig .tc .vmem S8x100000 .f32) (harg2 : arg2.IsWhole) (x0 : Vec F S8x100000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__normalize_kernel i arg1 harg1 arg2 harg2) K := by
  simp only [cc2__normalize_kernel_eq_skeleton]; unfold cc2__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The pipeline's proof data on core `c`: the arrays as the launch finds them; after the body at point `t` the input's
    buffer at its block and the output's at `out2_1` of it; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.WalkRunIdeal.lean ====
/-
  The whole program's run, launch by launch: the contents of the core's buffers at every boundary between the host
  stretches and the three normalizing launches, each launch's output array at what its write-backs leave, and the
  run itself — every weakly fair execution ends with the result buffer at the last boundary's contents and the five
  argument arrays as launched.
-/
import proofs.«415690_j12378095747627_3_alg».proof.Proof.NormLaunch0
import proofs.«415690_j12378095747627_3_alg».proof.Proof.NormLaunch1
import proofs.«415690_j12378095747627_3_alg».proof.Proof.NormLaunch2
import proofs.«415690_j12378095747627_3_alg».proof.Proof.RegionsValIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references. -/
abbrev tcv (W : Dev nD → Valuation τ sig (Elt F)) : (c : Dev nD) → (b : Ref sig .tc) → Buf (Elt F) ((c : Thread nD τ).loc b) :=
  fun c b => W c b

/-! ## The boundaries' contents: the launch memory, each host stretch applied, each launch's output array replaced -/

/-- Entering launch 0: the launch memory after the first four host stretches. -/
abbrev B4 (c : Dev nD) : Valuation τ sig (Elt F) := V4 m c
/-- What launch 0's write-backs leave in its output array. -/
def left0 (c : Dev nD) : Buf (Elt F) ((c : Thread nD τ).loc main_v13) := (dat0 (tcv (B4 m)) c).arrAt 1 cfg0.N
/-- Leaving launch 0. -/
abbrev B5 (c : Dev nD) : Valuation τ sig (Elt F) := Function.update (B4 m c) (Proc.devRef .tc main_v13) (left0 m c)
/-- Entering launch 1: four more host stretches. -/
abbrev B9 (c : Dev nD) : Valuation τ sig (Elt F) :=
  StableHlo.after hostOps1_3 (StableHlo.after hostOps1_2 (StableHlo.after hostOps1_1 (StableHlo.after hostOps1 (B5 m c))))
def left1 (c : Dev nD) : Buf (Elt F) ((c : Thread nD τ).loc main_v27) := (dat1 (tcv (B9 m)) c).arrAt 1 cfg1.N
abbrev B10 (c : Dev nD) : Valuation τ sig (Elt F) := Function.update (B9 m c) (Proc.devRef .tc main_v27) (left1 m c)
/-- Entering launch 2. -/
abbrev B14 (c : Dev nD) : Valuation τ sig (Elt F) :=
  StableHlo.after hostOps2_3 (StableHlo.after hostOps2_2 (StableHlo.after hostOps2_1 (StableHlo.after hostOps2 (B10 m c))))
def left2 (c : Dev nD) : Buf (Elt F) ((c : Thread nD τ).loc main_v41) := (dat2 (tcv (B14 m)) c).arrAt 1 cfg2.N
abbrev B15 (c : Dev nD) : Valuation τ sig (Elt F) := Function.update (B14 m c) (Proc.devRef .tc main_v41) (left2 m c)
/-- The end: the last host stretch stacks the four entity distributions. -/
abbrev B16 (c : Dev nD) : Valuation τ sig (Elt F) := StableHlo.after hostOps3 (B15 m c)

/-- What the launches leave, as the family the generated boundary contents are written over. -/
def left : Outs (F := F) := fun j r c =>
  match j with
  | 5 => B5 m c (Proc.devRef .tc r)
  | 10 => B10 m c (Proc.devRef .tc r)
  | 15 => B15 m c (Proc.devRef .tc r)
  | _ => V0 m c (Proc.devRef .tc r)

theorem V5_eq (c : Dev nD) : V5 m (left m) c = B5 m c := by
  show Function.update (V4 m c) (Proc.devRef .tc main_v13) (Function.update (V4 m c) (Proc.devRef .tc main_v13) (left0 m c) (Proc.devRef .tc main_v13)) = _
  rw [Function.update_self]
theorem V9_eq (c : Dev nD) : V9 m (left m) c = B9 m c := by
  show StableHlo.after hostOps1_3 (StableHlo.after hostOps1_2 (StableHlo.after hostOps1_1 (StableHlo.after hostOps1 (V5 m (left m) c)))) = _
  rw [V5_eq]
theorem V10_eq (c : Dev nD) : V10 m (left m) c = B10 m c := by
  show Function.update (V9 m (left m) c) (Proc.devRef .tc main_v27) (Function.update (B9 m c) (Proc.devRef .tc main_v27) (left1 m c) (Proc.devRef .tc main_v27)) = _
  rw [Function.update_self, V9_eq]
theorem V14_eq (c : Dev nD) : V14 m (left m) c = B14 m c := by
  show StableHlo.after hostOps2_3 (StableHlo.after hostOps2_2 (StableHlo.after hostOps2_1 (StableHlo.after hostOps2 (V10 m (left m) c)))) = _
  rw [V10_eq]
theorem V15_eq (c : Dev nD) : V15 m (left m) c = B15 m c := by
  show Function.update (V14 m (left m) c) (Proc.devRef .tc main_v41) (Function.update (B14 m c) (Proc.devRef .tc main_v41) (left2 m c) (Proc.devRef .tc main_v41)) = _
  rw [Function.update_self, V14_eq]
theorem V16_eq (c : Dev nD) : V16 m (left m) c = B16 m c := by
  show StableHlo.after hostOps3 (V15 m (left m) c) = _
  rw [V15_eq]

/-- At launch 0's exit its output array holds what the pipeline's write-backs leave and its input array is as entered, -/
theorem hF0 (c : Dev nD) (w : Fin cfg0.W) : (dat0 (tcv (B4 m)) c).arrAt w cfg0.N = tcv (B5 m) c (Pipeline.arrRef spec0 w) := by
  match w with
  | ⟨0, _⟩ =>
    refine (((dat0 (tcv (B4 m)) c).arrAt_in 0 rfl _).trans (A_eq0 (tcv (B4 m)) c 0)).trans ?_
    show B4 m c (Proc.devRef .tc main_v12) = Function.update (B4 m c) (Proc.devRef .tc main_v13) (left0 m c) (Proc.devRef .tc main_v12)
    rw [Function.update_of_ne (StableHlo.devRef_ne_of_ne (by decide))]
  | ⟨1, _⟩ =>
    show left0 m c = Function.update (B4 m c) (Proc.devRef .tc main_v13) (left0 m c) (Proc.devRef .tc main_v13)
    rw [Function.update_self]
/-- and every other buffer is as entered. -/
theorem hrest0 (c : Dev nD) : ∀ b, b ∉ Finset.univ.image (Pipeline.arrRef spec0) → tcv (B5 m) c b = tcv (B4 m) c b := fun b hb => by
  have hne : b ≠ main_v13 := fun e => hb (Finset.mem_image.mpr ⟨1, Finset.mem_univ _, e.symm⟩)
  show Function.update (B4 m c) (Proc.devRef .tc main_v13) (left0 m c) (Proc.devRef .tc b) = B4 m c (Proc.devRef .tc b)
  rw [Function.update_of_ne (StableHlo.devRef_ne_of_ne hne)]

/-- At launch 1's exit its output array holds what the pipeline's write-backs leave and its input array is as entered, -/
theorem hF1 (c : Dev nD) (w : Fin cfg1.W) : (dat1 (tcv (B9 m)) c).arrAt w cfg1.N = tcv (B10 m) c (Pipeline.arrRef spec1 w) := by
  match w with
  | ⟨0, _⟩ =>
    refine (((dat1 (tcv (B9 m)) c).arrAt_in 0 rfl _).trans (A_eq1 (tcv (B9 m)) c 0)).trans ?_
    show B9 m c (Proc.devRef .tc main_v26) = Function.update (B9 m c) (Proc.devRef .tc main_v27) (left1 m c) (Proc.devRef .tc main_v26)
    rw [Function.update_of_ne (StableHlo.devRef_ne_of_ne (by decide))]
  | ⟨1, _⟩ =>
    show left1 m c = Function.update (B9 m c) (Proc.devRef .tc main_v27) (left1 m c) (Proc.devRef .tc main_v27)
    rw [Function.update_self]
/-- and every other buffer is as entered. -/
theorem hrest1 (c : Dev nD) : ∀ b, b ∉ Finset.univ.image (Pipeline.arrRef spec1) → tcv (B10 m) c b = tcv (B9 m) c b := fun b hb => by
  have hne : b ≠ main_v27 := fun e => hb (Finset.mem_image.mpr ⟨1, Finset.mem_univ _, e.symm⟩)
  show Function.update (B9 m c) (Proc.devRef .tc main_v27) (left1 m c) (Proc.devRef .tc b) = B9 m c (Proc.devRef .tc b)
  rw [Function.update_of_ne (StableHlo.devRef_ne_of_ne hne)]

/-- At launch 2's exit its output array holds what the pipeline's write-backs leave and its input array is as entered, -/
theorem hF2 (c : Dev nD) (w : Fin cfg2.W) : (dat2 (tcv (B14 m)) c).arrAt w cfg2.N = tcv (B15 m) c (Pipeline.arrRef spec2 w) := by
  match w with
  | ⟨0, _⟩ =>
    refine (((dat2 (tcv (B14 m)) c).arrAt_in 0 rfl _).trans (A_eq2 (tcv (B14 m)) c 0)).trans ?_
    show B14 m c (Proc.devRef .tc main_v40) = Function.update (B14 m c) (Proc.devRef .tc main_v41) (left2 m c) (Proc.devRef .tc main_v40)
    rw [Function.update_of_ne (StableHlo.devRef_ne_of_ne (by decide))]
  | ⟨1, _⟩ =>
    show left2 m c = Function.update (B14 m c) (Proc.devRef .tc main_v41) (left2 m c) (Proc.devRef .tc main_v41)
    rw [Function.update_self]
/-- and every other buffer is as entered. -/
theorem hrest2 (c : Dev nD) : ∀ b, b ∉ Finset.univ.image (Pipeline.arrRef spec2) → tcv (B15 m) c b = tcv (B14 m) c b := fun b hb => by
  have hne : b ≠ main_v41 := fun e => hb (Finset.mem_image.mpr ⟨1, Finset.mem_univ _, e.symm⟩)
  show Function.update (B14 m c) (Proc.devRef .tc main_v41) (left2 m c) (Proc.devRef .tc b) = B14 m c (Proc.devRef .tc b)
  rw [Function.update_of_ne (StableHlo.devRef_ne_of_ne hne)]

/-! ## The proof data family and what rides beside the buffers -/

/-- Every launch's proof data, each at its entry contents. -/
def pdats : (p : Fin 3) → (c : Dev nD) → Dat τ (Elt F) Unit ℕ (UR sig nD τ) ℕ (cfgs p) c
  | ⟨0, _⟩ => fun c => dat0 (tcv (B4 m)) c
  | ⟨1, _⟩ => fun c => dat1 (tcv (B9 m)) c
  | ⟨2, _⟩ => fun c => dat2 (tcv (B14 m)) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Launch 0 as a segment: entered with every unscoped buffer at `B4`, left at `B5`; its two arrays are split
    out of the unscoped buffers at entry and put back at exit, the generator register passes through the class
    invariant, nothing is owed, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (B4 m)) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (tcv (B4 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (B4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (B4 m) c) (tcv (B5 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `B9`, left at `B10`; its two arrays are split
    out of the unscoped buffers at entry and put back at exit, the generator register passes through the class
    invariant, nothing is owed, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (B9 m)) c).loose
  hwaits := Pipeline.hwaits_of_owed_zero _ _ _ _ L lv 1 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec1 c (tcv (B9 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (B9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (B9 m) c) (tcv (B10 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment: entered with every unscoped buffer at `B14`, left at `B15`; its two arrays are split
    out of the unscoped buffers at entry and put back at exit, the generator register passes through the class
    invariant, nothing is owed, and the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (B14 m)) c).loose
  hwaits := Pipeline.hwaits_of_owed_zero _ _ _ _ L lv 2 fun _ _ => rfl
  pre c := iprop(StableHlo.held (c : Thread nD τ) (Pipeline.ucRefs τ sig) (B14 m c) ∗ R c)
  post c := iprop(StableHlo.held (c : Thread nD τ) (Pipeline.ucRefs τ sig) (B15 m c) ∗ R c)
  X c := iprop(∃ r, prngReg c r)
  Y c := iprop(∃ r, prngReg c r)
  Z c := Pipeline.unscopedRest (Ix := Unit) (Name := ℕ) (U := UR sig nD τ) (Lvl := ℕ) spec2 c (tcv (B14 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (B14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (B14 m) c) (tcv (B15 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates without a fault, with the
    result buffer at the last boundary's contents and the five argument arrays as launched. -/
theorem run (ρ : Dev nD → PrngReg) :
    θ_run defs (onTc (τ := τ) (main (F := F))) ⟨m, fun _ => 0, ρ⟩ (fun r => ∀ c : Dev nD,
      r.2.mem ((c.tc : Thread nD τ).loc main_v46) = B16 m c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := frame_cond_val (F := F) m emb₁ () 𝒱₀ L lv (fun _ _ => rfl) ρ (left m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun c => .rfl) (hpost0 := fun c => by rw [V5_eq]; exact .rfl)
    (R1 := reg1 m) (hpre1 := fun c => by rw [V9_eq]; exact .rfl) (hpost1 := fun c => by rw [V10_eq]; exact .rfl)
    (R2 := reg2 m) (hpre2 := fun c => by rw [V14_eq]; exact .rfl) (hpost2 := fun c => by rw [V15_eq]; exact .rfl)
  refine (θ_run defs _ _).mono (fun r hr c => ?_) h
  have := hr c
  rw [V16_eq] at this
  exact this

end Cert.KernelIdeal.Hand

end
-- ==== Proof.HostGlue.lean ====
/-
  The host side of the kernel program as pure functions of the argument arrays. Per hop: the relation scores are one
  slice of the relation sequence; a take with fill reads the entity (or relation) scores at each edge's index, with a
  fill value wherever the index, after the wrap of negatives, is outside the table; the product of the two is
  scatter-added along the entity axis at the edges' tail indices, wrapped the same way. At the end the initial entity
  scores and the three hops' results are laid side by side.
-/
import proofs.«415690_j12378095747627_3_alg».proof.Proof.Gen.KernelIdeal

noncomputable section

namespace Cert.KernelIdeal.Hand

open Idealize.ShloMosaic Cert.KernelIdeal Cert.KernelIdeal.Gen

variable {F : FTy → Type} [FloatOps F]

/-- Add `n` to every negative index word. -/
def wrapIdx (n : BitVec 32) (h : IVec S3200000 32) : IVec S3200000 32 :=
  select (cmpi .slt h (broadcastInDim S3200000 ![] bcast_S_S3200000 (constantI S_ 32 0#32)))
    (addi h (broadcastInDim S3200000 ![] bcast_S_S3200000 (constantI S_ 32 n))) h

/-- An index vector as one column. -/
def col (h : IVec S3200000 32) : IVec S3200000x1 32 := broadcastInDim S3200000x1 ![0] bcast_S3200000_S3200000x1_0 h

/-- The range test `0 ≤ i ≤ hi` on an index column, laid along every batch row. -/
def inMask (hi : BitVec 32) (idx : IVec S3200000x1 32) : IVec S16x3200000 1 :=
  broadcastInDim S16x3200000 ![1] bcast_S3200000_S16x3200000_1
    (Host.reduce IntOp.andi
      (andi (cmpi .sge idx (broadcastInDim S3200000x1 ![] bcast_S_S3200000x1 (constantI S_ 32 0#32)))
            (cmpi .sle idx (broadcastInDim S3200000x1 ![0, 1] bcast_S1x1_S3200000x1_0_1 (broadcastInDim S1x1 ![1] bcast_S1_S1x1_1 (constantI S1 32 hi)))))
      (constantI S_ 1 1#1) reducesTo_S3200000x1_S3200000_d1 h_S_)

/-- The fill value of an out-of-range read. -/
def fillVal : FVec F S16x3200000 .f32 := broadcastInDim S16x3200000 ![] bcast_S_S16x3200000 (constant S_ .f32 0x7FC00000#32)

/-- Entity scores at each edge's head index, filled where the index is out of range. -/
def takeE (e : FVec F S16x100000 .f32) (h : IVec S3200000 32) : FVec F S16x3200000 .f32 :=
  select (inMask 99999#32 (col (wrapIdx 100000#32 h)))
    (Host.gather gather_S16x100000_S3200000x1_S16x3200000_0_1_n_n_1_1_161 e (col (wrapIdx 100000#32 h))) fillVal

/-- Relation scores at each edge's relation index, filled where the index is out of range. -/
def takeR (r : FVec F S16x500 .f32) (h : IVec S3200000 32) : FVec F S16x3200000 .f32 :=
  select (inMask 499#32 (col (wrapIdx 500#32 h)))
    (Host.gather gather_S16x500_S3200000x1_S16x3200000_0_1_n_n_1_1_161 r (col (wrapIdx 500#32 h))) fillVal

def zerosBE : FVec F S16x100000 .f32 := broadcastInDim S16x100000 ![] bcast_S_S16x100000 (constant S_ .f32 0x00000000#32)

/-- One hop before normalizing: the edge scores scatter-added onto the tail entities. -/
def kwalk (e : FVec F S16x100000 .f32) (r : FVec F S16x500 .f32) (h rl tl : IVec S3200000 32) : FVec F S16x100000 .f32 :=
  Host.scatterAdd scatter_S16x100000_S3200000x1_S16x3200000_0_1_1_1 zerosBE (col (wrapIdx 100000#32 tl)) (mulf (takeE e h) (takeR r rl))

/-- The relation scores of hops 0, 1, 2. -/
def relRow0 (x0 : FVec F S16x3x500 .f32) : FVec F S16x500 .f32 :=
  shapeCast _ (extractStridedSlice S16x1x500 ![0, 0, 0] x0 slices_S16x3x500_S16x1x500_0_0_0) shapeCasts_S16x1x500_S16x500
def relRow1 (x0 : FVec F S16x3x500 .f32) : FVec F S16x500 .f32 :=
  shapeCast _ (extractStridedSlice S16x1x500 ![0, 1, 0] x0 slices_S16x3x500_S16x1x500_0_1_0) shapeCasts_S16x1x500_S16x500
def relRow2 (x0 : FVec F S16x3x500 .f32) : FVec F S16x500 .f32 :=
  shapeCast _ (extractStridedSlice S16x1x500 ![0, 2, 0] x0 slices_S16x3x500_S16x1x500_0_2_0) shapeCasts_S16x1x500_S16x500

/-- An entity distribution as one slab of the stacked result. -/
def slab (e : FVec F S16x100000 .f32) : FVec F S16x1x100000 .f32 :=
  broadcastInDim S16x1x100000 ![0, 2] bcast_S16x100000_S16x1x100000_0_2 e

/-- The four entity distributions side by side. -/
def stack4 (a b c d : FVec F S16x100000 .f32) : FVec F S16x4x100000 .f32 :=
  concatenate S16x4x100000 1 [⟨S16x1x100000, slab a⟩, ⟨S16x1x100000, slab b⟩, ⟨S16x1x100000, slab c⟩, ⟨S16x1x100000, slab d⟩]
    concatenates_S16x1x100000_S16x1x100000_S16x1x100000_S16x1x100000_S16x4x100000_d1

end Cert.KernelIdeal.Hand

end
-- ==== Proof.GlueRead0.lean ====
/-
  Hop 0's four host stretches read as one pure function: from any contents `W` of the core's buffers, after the
  relation slice, the two filling takes and the scatter-add, the walked array holds `kwalk` of the entity scores, the
  hop's relation scores and the three index arrays as `W` has them.
-/
import proofs.«415690_j12378095747627_3_alg».proof.Proof.HostGlue
import proofs.«415690_j12378095747627_3_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]

/-- A value carried to a buffer's own type and back is itself. -/
private theorem cast_pair {α β : Type} (h : α = β) (h' : β = α) (v : α) : cast h' (cast h v) = v := by subst h; rfl

/-- The buffers these stretches read and write hold values of the stated tensor types: carrying a value between the
    tensor type and the buffer's own type is the identity. -/
private theorem ofBuf_ent (v : (Proc.devRef (τ := τ) .tc main_arg1).ty.Contents (Elt F)) :
    (TRef.of main_arg1 : TRef sig ⟨S16x100000, .f32⟩).ofBuf v = v := rfl
private theorem ofBuf_heads (v : (Proc.devRef (τ := τ) .tc main_arg2).ty.Contents (Elt F)) :
    (TRef.of main_arg2 : TRef sig ⟨S3200000, .i32⟩).ofBuf v = v := rfl
private theorem toBuf_takeE (v : (⟨S16x3200000, .f32⟩ : BufTy).Contents (Elt F)) :
    (TRef.of main_v2 : TRef sig ⟨S16x3200000, .f32⟩).toBuf v = v := rfl
private theorem ofBuf_rel (v : (Proc.devRef (τ := τ) .tc main_v1).ty.Contents (Elt F)) :
    (TRef.of main_v1 : TRef sig ⟨S16x500, .f32⟩).ofBuf v = v := rfl
private theorem ofBuf_rels (v : (Proc.devRef (τ := τ) .tc main_arg3).ty.Contents (Elt F)) :
    (TRef.of main_arg3 : TRef sig ⟨S3200000, .i32⟩).ofBuf v = v := rfl
private theorem toBuf_takeR (v : (⟨S16x3200000, .f32⟩ : BufTy).Contents (Elt F)) :
    (TRef.of main_v3 : TRef sig ⟨S16x3200000, .f32⟩).toBuf v = v := rfl

/-- The relation scores of hop 0: a slice of the relation sequence, reshaped. -/
theorem rel0_read (W : Valuation τ sig (Elt F)) :
    StableHlo.after hostOps0 W (Proc.devRef .tc main_v1) = relRow0 (F := F) (W (Proc.devRef .tc main_arg0)) := by
  after_results
  funext i
  dsimp only
  rfl

set_option maxHeartbeats 8000000 in
set_option maxRecDepth 400000 in
/-- The filling take of the entity scores at the head indices. -/
theorem takeE0_read (W : Valuation τ sig (Elt F)) :
    StableHlo.after hostOps0_1 W (Proc.devRef .tc main_v2)
      = takeE (F := F) (W (Proc.devRef .tc main_arg1)) (W (Proc.devRef .tc main_arg2)) := by
  after_results
  simp only [cast_pair]
  rw [toBuf_takeE]
  simp only [ofBuf_ent, ofBuf_heads]
  rfl

set_option maxHeartbeats 8000000 in
set_option maxRecDepth 400000 in
/-- The filling take of the relation scores at the relation indices. -/
theorem takeR0_read (W : Valuation τ sig (Elt F)) :
    StableHlo.after hostOps0_2 W (Proc.devRef .tc main_v3)
      = takeR (F := F) (W (Proc.devRef .tc main_v1)) (W (Proc.devRef .tc main_arg3)) := by
  after_results
  simp only [cast_pair]
  rw [toBuf_takeR]
  simp only [ofBuf_rel, ofBuf_rels]
  rfl

set_option maxHeartbeats 4000000 in
/-- The product of the two takes scatter-added at the wrapped tail indices. -/
theorem scat0_read (W : Valuation τ sig (Elt F)) :
    StableHlo.after hostOps0_3 W (Proc.devRef .tc main_v12)
      = Host.scatterAdd scatter_S16x100000_S3200000x1_S16x3200000_0_1_1_1 zerosBE (col (wrapIdx 100000#32 (W (Proc.devRef .tc main_arg4))))
          (mulf (W (Proc.devRef .tc main_v2)) (W (Proc.devRef .tc main_v3))) := by
  after_results
  rfl

set_option maxHeartbeats 4000000 in
/-- The four stretches in a row. -/
theorem hop0_read (W : Valuation τ sig (Elt F)) :
    StableHlo.after hostOps0_3 (StableHlo.after hostOps0_2 (StableHlo.after hostOps0_1 (StableHlo.after hostOps0 W))) (Proc.devRef .tc main_v12)
      = kwalk (F := F) (W (Proc.devRef .tc main_arg1)) (relRow0 (W (Proc.devRef .tc main_arg0)))
          (W (Proc.devRef .tc main_arg2)) (W (Proc.devRef .tc main_arg3)) (W (Proc.devRef .tc main_arg4)) := by
  have e4 : StableHlo.after hostOps0_2 (StableHlo.after hostOps0_1 (StableHlo.after hostOps0 W)) (Proc.devRef .tc main_arg4) = W (Proc.devRef .tc main_arg4) :=
    (StableHlo.after_of_writes_sub hostOps0_2 _ hostOps0_2_writes (r := main_arg4) (by decide)).trans
      ((StableHlo.after_of_writes_sub hostOps0_1 _ hostOps0_1_writes (r := main_arg4) (by decide)).trans
        (StableHlo.after_of_writes_sub hostOps0 _ hostOps0_writes (r := main_arg4) (by decide)))
  have e2 : StableHlo.after hostOps0_2 (StableHlo.after hostOps0_1 (StableHlo.after hostOps0 W)) (Proc.devRef .tc main_v2)
      = takeE (F := F) (W (Proc.devRef .tc main_arg1)) (W (Proc.devRef .tc main_arg2)) :=
    (StableHlo.after_of_writes_sub hostOps0_2 _ hostOps0_2_writes (r := main_v2) (by decide)).trans
      ((takeE0_read _).trans (by
        rw [StableHlo.after_of_writes_sub hostOps0 W hostOps0_writes (r := main_arg1) (by decide),
          StableHlo.after_of_writes_sub hostOps0 W hostOps0_writes (r := main_arg2) (by decide)]))
  have e3 : StableHlo.after hostOps0_2 (StableHlo.after hostOps0_1 (StableHlo.after hostOps0 W)) (Proc.devRef .tc main_v3)
      = takeR (F := F) (relRow0 (W (Proc.devRef .tc main_arg0))) (W (Proc.devRef .tc main_arg3)) :=
    (takeR0_read _).trans (by
      rw [StableHlo.after_of_writes_sub hostOps0_1 _ hostOps0_1_writes (r := main_v1) (by decide), rel0_read,
        StableHlo.after_of_writes_sub hostOps0_1 _ hostOps0_1_writes (r := main_arg3) (by decide),
        StableHlo.after_of_writes_sub hostOps0 W hostOps0_writes (r := main_arg3) (by decide)])
  rw [scat0_read, e4, e2, e3]
  rfl

end Cert.KernelIdeal.Hand

end
-- ==== Proof.GlueRead1.lean ====
/-
  hop 1's four host stretches read as one pure function: from any contents `W` of the core's buffers, after the
  relation slice, the two filling takes and the scatter-add, the walked array holds `kwalk` of the entity scores, the
  hop's relation scores and the three index arrays as `W` has them.
-/
import proofs.«415690_j12378095747627_3_alg».proof.Proof.HostGlue
import proofs.«415690_j12378095747627_3_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]

/-- A value carried to a buffer's own type and back is itself. -/
private theorem cast_pair {α β : Type} (h : α = β) (h' : β = α) (v : α) : cast h' (cast h v) = v := by subst h; rfl

/-- The buffers these stretches read and write hold values of the stated tensor types: carrying a value between the
    tensor type and the buffer's own type is the identity. -/
private theorem ofBuf_ent (v : (Proc.devRef (τ := τ) .tc main_v13).ty.Contents (Elt F)) :
    (TRef.of main_v13 : TRef sig ⟨S16x100000, .f32⟩).ofBuf v = v := rfl
private theorem ofBuf_heads (v : (Proc.devRef (τ := τ) .tc main_arg2).ty.Contents (Elt F)) :
    (TRef.of main_arg2 : TRef sig ⟨S3200000, .i32⟩).ofBuf v = v := rfl
private theorem toBuf_takeE (v : (⟨S16x3200000, .f32⟩ : BufTy).Contents (Elt F)) :
    (TRef.of main_v16 : TRef sig ⟨S16x3200000, .f32⟩).toBuf v = v := rfl
private theorem ofBuf_rel (v : (Proc.devRef (τ := τ) .tc main_v15).ty.Contents (Elt F)) :
    (TRef.of main_v15 : TRef sig ⟨S16x500, .f32⟩).ofBuf v = v := rfl
private theorem ofBuf_rels (v : (Proc.devRef (τ := τ) .tc main_arg3).ty.Contents (Elt F)) :
    (TRef.of main_arg3 : TRef sig ⟨S3200000, .i32⟩).ofBuf v = v := rfl
private theorem toBuf_takeR (v : (⟨S16x3200000, .f32⟩ : BufTy).Contents (Elt F)) :
    (TRef.of main_v17 : TRef sig ⟨S16x3200000, .f32⟩).toBuf v = v := rfl

/-- The relation scores of hop 1: a slice of the relation sequence, reshaped. -/
theorem rel1_read (W : Valuation τ sig (Elt F)) :
    StableHlo.after hostOps1 W (Proc.devRef .tc main_v15) = relRow1 (F := F) (W (Proc.devRef .tc main_arg0)) := by
  after_results
  funext i
  dsimp only
  rfl

set_option maxHeartbeats 8000000 in
set_option maxRecDepth 400000 in
/-- The filling take of the entity scores at the head indices. -/
theorem takeE1_read (W : Valuation τ sig (Elt F)) :
    StableHlo.after hostOps1_1 W (Proc.devRef .tc main_v16)
      = takeE (F := F) (W (Proc.devRef .tc main_v13)) (W (Proc.devRef .tc main_arg2)) := by
  after_results
  simp only [cast_pair]
  rw [toBuf_takeE]
  simp only [ofBuf_ent, ofBuf_heads]
  rfl

set_option maxHeartbeats 8000000 in
set_option maxRecDepth 400000 in
/-- The filling take of the relation scores at the relation indices. -/
theorem takeR1_read (W : Valuation τ sig (Elt F)) :
    StableHlo.after hostOps1_2 W (Proc.devRef .tc main_v17)
      = takeR (F := F) (W (Proc.devRef .tc main_v15)) (W (Proc.devRef .tc main_arg3)) := by
  after_results
  simp only [cast_pair]
  rw [toBuf_takeR]
  simp only [ofBuf_rel, ofBuf_rels]
  rfl

set_option maxHeartbeats 4000000 in
/-- The product of the two takes scatter-added at the wrapped tail indices. -/
theorem scat1_read (W : Valuation τ sig (Elt F)) :
    StableHlo.after hostOps1_3 W (Proc.devRef .tc main_v26)
      = Host.scatterAdd scatter_S16x100000_S3200000x1_S16x3200000_0_1_1_1 zerosBE (col (wrapIdx 100000#32 (W (Proc.devRef .tc main_arg4))))
          (mulf (W (Proc.devRef .tc main_v16)) (W (Proc.devRef .tc main_v17))) := by
  after_results
  rfl

set_option maxHeartbeats 4000000 in
/-- The four stretches in a row. -/
theorem hop1_read (W : Valuation τ sig (Elt F)) :
    StableHlo.after hostOps1_3 (StableHlo.after hostOps1_2 (StableHlo.after hostOps1_1 (StableHlo.after hostOps1 W))) (Proc.devRef .tc main_v26)
      = kwalk (F := F) (W (Proc.devRef .tc main_v13)) (relRow1 (W (Proc.devRef .tc main_arg0)))
          (W (Proc.devRef .tc main_arg2)) (W (Proc.devRef .tc main_arg3)) (W (Proc.devRef .tc main_arg4)) := by
  have e4 : StableHlo.after hostOps1_2 (StableHlo.after hostOps1_1 (StableHlo.after hostOps1 W)) (Proc.devRef .tc main_arg4) = W (Proc.devRef .tc main_arg4) :=
    (StableHlo.after_of_writes_sub hostOps1_2 _ hostOps1_2_writes (r := main_arg4) (by decide)).trans
      ((StableHlo.after_of_writes_sub hostOps1_1 _ hostOps1_1_writes (r := main_arg4) (by decide)).trans
        (StableHlo.after_of_writes_sub hostOps1 _ hostOps1_writes (r := main_arg4) (by decide)))
  have e2 : StableHlo.after hostOps1_2 (StableHlo.after hostOps1_1 (StableHlo.after hostOps1 W)) (Proc.devRef .tc main_v16)
      = takeE (F := F) (W (Proc.devRef .tc main_v13)) (W (Proc.devRef .tc main_arg2)) :=
    (StableHlo.after_of_writes_sub hostOps1_2 _ hostOps1_2_writes (r := main_v16) (by decide)).trans
      ((takeE1_read _).trans (by
        rw [StableHlo.after_of_writes_sub hostOps1 W hostOps1_writes (r := main_v13) (by decide),
          StableHlo.after_of_writes_sub hostOps1 W hostOps1_writes (r := main_arg2) (by decide)]))
  have e3 : StableHlo.after hostOps1_2 (StableHlo.after hostOps1_1 (StableHlo.after hostOps1 W)) (Proc.devRef .tc main_v17)
      = takeR (F := F) (relRow1 (W (Proc.devRef .tc main_arg0))) (W (Proc.devRef .tc main_arg3)) :=
    (takeR1_read _).trans (by
      rw [StableHlo.after_of_writes_sub hostOps1_1 _ hostOps1_1_writes (r := main_v15) (by decide), rel1_read,
        StableHlo.after_of_writes_sub hostOps1_1 _ hostOps1_1_writes (r := main_arg3) (by decide),
        StableHlo.after_of_writes_sub hostOps1 W hostOps1_writes (r := main_arg3) (by decide)])
  rw [scat1_read, e4, e2, e3]
  rfl

end Cert.KernelIdeal.Hand

end
-- ==== Proof.GlueRead2.lean ====
/-
  hop 2's four host stretches read as one pure function: from any contents `W` of the core's buffers, after the
  relation slice, the two filling takes and the scatter-add, the walked array holds `kwalk` of the entity scores, the
  hop's relation scores and the three index arrays as `W` has them.
-/
import proofs.«415690_j12378095747627_3_alg».proof.Proof.HostGlue
import proofs.«415690_j12378095747627_3_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]

/-- A value carried to a buffer's own type and back is itself. -/
private theorem cast_pair {α β : Type} (h : α = β) (h' : β = α) (v : α) : cast h' (cast h v) = v := by subst h; rfl

/-- The buffers these stretches read and write hold values of the stated tensor types: carrying a value between the
    tensor type and the buffer's own type is the identity. -/
private theorem ofBuf_ent (v : (Proc.devRef (τ := τ) .tc main_v27).ty.Contents (Elt F)) :
    (TRef.of main_v27 : TRef sig ⟨S16x100000, .f32⟩).ofBuf v = v := rfl
private theorem ofBuf_heads (v : (Proc.devRef (τ := τ) .tc main_arg2).ty.Contents (Elt F)) :
    (TRef.of main_arg2 : TRef sig ⟨S3200000, .i32⟩).ofBuf v = v := rfl
private theorem toBuf_takeE (v : (⟨S16x3200000, .f32⟩ : BufTy).Contents (Elt F)) :
    (TRef.of main_v30 : TRef sig ⟨S16x3200000, .f32⟩).toBuf v = v := rfl
private theorem ofBuf_rel (v : (Proc.devRef (τ := τ) .tc main_v29).ty.Contents (Elt F)) :
    (TRef.of main_v29 : TRef sig ⟨S16x500, .f32⟩).ofBuf v = v := rfl
private theorem ofBuf_rels (v : (Proc.devRef (τ := τ) .tc main_arg3).ty.Contents (Elt F)) :
    (TRef.of main_arg3 : TRef sig ⟨S3200000, .i32⟩).ofBuf v = v := rfl
private theorem toBuf_takeR (v : (⟨S16x3200000, .f32⟩ : BufTy).Contents (Elt F)) :
    (TRef.of main_v31 : TRef sig ⟨S16x3200000, .f32⟩).toBuf v = v := rfl

/-- The relation scores of hop 2: a slice of the relation sequence, reshaped. -/
theorem rel2_read (W : Valuation τ sig (Elt F)) :
    StableHlo.after hostOps2 W (Proc.devRef .tc main_v29) = relRow2 (F := F) (W (Proc.devRef .tc main_arg0)) := by
  after_results
  funext i
  dsimp only
  rfl

set_option maxHeartbeats 8000000 in
set_option maxRecDepth 400000 in
/-- The filling take of the entity scores at the head indices. -/
theorem takeE2_read (W : Valuation τ sig (Elt F)) :
    StableHlo.after hostOps2_1 W (Proc.devRef .tc main_v30)
      = takeE (F := F) (W (Proc.devRef .tc main_v27)) (W (Proc.devRef .tc main_arg2)) := by
  after_results
  simp only [cast_pair]
  rw [toBuf_takeE]
  simp only [ofBuf_ent, ofBuf_heads]
  rfl

set_option maxHeartbeats 8000000 in
set_option maxRecDepth 400000 in
/-- The filling take of the relation scores at the relation indices. -/
theorem takeR2_read (W : Valuation τ sig (Elt F)) :
    StableHlo.after hostOps2_2 W (Proc.devRef .tc main_v31)
      = takeR (F := F) (W (Proc.devRef .tc main_v29)) (W (Proc.devRef .tc main_arg3)) := by
  after_results
  simp only [cast_pair]
  rw [toBuf_takeR]
  simp only [ofBuf_rel, ofBuf_rels]
  rfl

set_option maxHeartbeats 4000000 in
/-- The product of the two takes scatter-added at the wrapped tail indices. -/
theorem scat2_read (W : Valuation τ sig (Elt F)) :
    StableHlo.after hostOps2_3 W (Proc.devRef .tc main_v40)
      = Host.scatterAdd scatter_S16x100000_S3200000x1_S16x3200000_0_1_1_1 zerosBE (col (wrapIdx 100000#32 (W (Proc.devRef .tc main_arg4))))
          (mulf (W (Proc.devRef .tc main_v30)) (W (Proc.devRef .tc main_v31))) := by
  after_results
  rfl

set_option maxHeartbeats 4000000 in
/-- The four stretches in a row. -/
theorem hop2_read (W : Valuation τ sig (Elt F)) :
    StableHlo.after hostOps2_3 (StableHlo.after hostOps2_2 (StableHlo.after hostOps2_1 (StableHlo.after hostOps2 W))) (Proc.devRef .tc main_v40)
      = kwalk (F := F) (W (Proc.devRef .tc main_v27)) (relRow2 (W (Proc.devRef .tc main_arg0)))
          (W (Proc.devRef .tc main_arg2)) (W (Proc.devRef .tc main_arg3)) (W (Proc.devRef .tc main_arg4)) := by
  have e4 : StableHlo.after hostOps2_2 (StableHlo.after hostOps2_1 (StableHlo.after hostOps2 W)) (Proc.devRef .tc main_arg4) = W (Proc.devRef .tc main_arg4) :=
    (StableHlo.after_of_writes_sub hostOps2_2 _ hostOps2_2_writes (r := main_arg4) (by decide)).trans
      ((StableHlo.after_of_writes_sub hostOps2_1 _ hostOps2_1_writes (r := main_arg4) (by decide)).trans
        (StableHlo.after_of_writes_sub hostOps2 _ hostOps2_writes (r := main_arg4) (by decide)))
  have e2 : StableHlo.after hostOps2_2 (StableHlo.after hostOps2_1 (StableHlo.after hostOps2 W)) (Proc.devRef .tc main_v30)
      = takeE (F := F) (W (Proc.devRef .tc main_v27)) (W (Proc.devRef .tc main_arg2)) :=
    (StableHlo.after_of_writes_sub hostOps2_2 _ hostOps2_2_writes (r := main_v30) (by decide)).trans
      ((takeE2_read _).trans (by
        rw [StableHlo.after_of_writes_sub hostOps2 W hostOps2_writes (r := main_v27) (by decide),
          StableHlo.after_of_writes_sub hostOps2 W hostOps2_writes (r := main_arg2) (by decide)]))
  have e3 : StableHlo.after hostOps2_2 (StableHlo.after hostOps2_1 (StableHlo.after hostOps2 W)) (Proc.devRef .tc main_v31)
      = takeR (F := F) (relRow2 (W (Proc.devRef .tc main_arg0))) (W (Proc.devRef .tc main_arg3)) :=
    (takeR2_read _).trans (by
      rw [StableHlo.after_of_writes_sub hostOps2_1 _ hostOps2_1_writes (r := main_v29) (by decide), rel2_read,
        StableHlo.after_of_writes_sub hostOps2_1 _ hostOps2_1_writes (r := main_arg3) (by decide),
        StableHlo.after_of_writes_sub hostOps2 W hostOps2_writes (r := main_arg3) (by decide)])
  rw [scat2_read, e4, e2, e3]
  rfl

end Cert.KernelIdeal.Hand

end
-- ==== Proof.GlueChain.lean ====
/-
  The boundary contents of the run read as pure functions of the launch memory. Entering each normalizing launch its
  input array holds one hop's walk — of the previous launch's output (the initial entity scores for the first), that
  hop's relation scores and the three index arrays as launched —, and the result buffer ends at the initial entity
  scores and the three launches' outputs side by side. No host stretch writes an argument array or an earlier launch's
  output, so each is found as it was left.
-/
import proofs.«415690_j12378095747627_3_alg».proof.Proof.WalkRunIdeal
import proofs.«415690_j12378095747627_3_alg».proof.Proof.GlueRead0
import proofs.«415690_j12378095747627_3_alg».proof.Proof.GlueRead1
import proofs.«415690_j12378095747627_3_alg».proof.Proof.GlueRead2

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]
set_option maxHeartbeats 4000000 in
/-- The last host stretch, from any contents `W`: the result buffer holds the four arrays side by side. -/
theorem stack_after (W : Valuation τ sig (Elt F)) :
    StableHlo.after hostOps3 W (Proc.devRef .tc main_v46)
      = stack4 (F := F) (W (Proc.devRef .tc main_arg1)) (W (Proc.devRef .tc main_v13)) (W (Proc.devRef .tc main_v27)) (W (Proc.devRef .tc main_v41)) := by
  simp only [after_cons, after_nil]
  rw [nary4_result]
  repeat (first
    | rw [unary_result]
    | (rw [unary_result_ne]; rotate_left; decide))
  rfl

variable (m : (ℓ : Loc nD τ sig) → Buf (Elt F) ℓ)

/-- An argument array, entering launch 0, is as launched. -/
theorem B4_arg (c : Dev nD) (r : Ref sig .tc) (h0 : r ∉ hostOps0_W) (h1 : r ∉ hostOps0_1_W) (h2 : r ∉ hostOps0_2_W) (h3 : r ∉ hostOps0_3_W) :
    B4 m c (Proc.devRef .tc r) = m ((c : Thread nD τ).loc r) :=
  (V4_of m c r h3).trans ((V3_of m c r h2).trans ((V2_of m c r h1).trans ((V1_of m c r h0).trans rfl)))

/-- Leaving launch 0 only its output array has changed. -/
theorem B5_of (c : Dev nD) (r : Ref sig .tc) (h : r ≠ main_v13) : B5 m c (Proc.devRef .tc r) = B4 m c (Proc.devRef .tc r) := by
  show Function.update (B4 m c) (Proc.devRef .tc main_v13) (left0 m c) (Proc.devRef .tc r) = _
  rw [Function.update_of_ne (StableHlo.devRef_ne_of_ne h)]
theorem B5_out (c : Dev nD) : B5 m c (Proc.devRef .tc main_v13) = left0 m c := by
  show Function.update (B4 m c) (Proc.devRef .tc main_v13) (left0 m c) (Proc.devRef .tc main_v13) = _
  rw [Function.update_self]

theorem B10_of (c : Dev nD) (r : Ref sig .tc) (h : r ≠ main_v27) : B10 m c (Proc.devRef .tc r) = B9 m c (Proc.devRef .tc r) := by
  show Function.update (B9 m c) (Proc.devRef .tc main_v27) (left1 m c) (Proc.devRef .tc r) = _
  rw [Function.update_of_ne (StableHlo.devRef_ne_of_ne h)]
theorem B10_out (c : Dev nD) : B10 m c (Proc.devRef .tc main_v27) = left1 m c := by
  show Function.update (B9 m c) (Proc.devRef .tc main_v27) (left1 m c) (Proc.devRef .tc main_v27) = _
  rw [Function.update_self]

theorem B15_of (c : Dev nD) (r : Ref sig .tc) (h : r ≠ main_v41) : B15 m c (Proc.devRef .tc r) = B14 m c (Proc.devRef .tc r) := by
  show Function.update (B14 m c) (Proc.devRef .tc main_v41) (left2 m c) (Proc.devRef .tc r) = _
  rw [Function.update_of_ne (StableHlo.devRef_ne_of_ne h)]
theorem B15_out (c : Dev nD) : B15 m c (Proc.devRef .tc main_v41) = left2 m c := by
  show Function.update (B14 m c) (Proc.devRef .tc main_v41) (left2 m c) (Proc.devRef .tc main_v41) = _
  rw [Function.update_self]

/-- The five argument arrays, leaving launch 0, are as launched. -/
theorem B5_arg0 (c : Dev nD) : B5 m c (Proc.devRef .tc main_arg0) = m ((c : Thread nD τ).loc main_arg0) :=
  (B5_of m c main_arg0 (by decide)).trans (B4_arg m c main_arg0 (by decide) (by decide) (by decide) (by decide))
theorem B5_arg1 (c : Dev nD) : B5 m c (Proc.devRef .tc main_arg1) = m ((c : Thread nD τ).loc main_arg1) :=
  (B5_of m c main_arg1 (by decide)).trans (B4_arg m c main_arg1 (by decide) (by decide) (by decide) (by decide))
theorem B5_arg2 (c : Dev nD) : B5 m c (Proc.devRef .tc main_arg2) = m ((c : Thread nD τ).loc main_arg2) :=
  (B5_of m c main_arg2 (by decide)).trans (B4_arg m c main_arg2 (by decide) (by decide) (by decide) (by decide))
theorem B5_arg3 (c : Dev nD) : B5 m c (Proc.devRef .tc main_arg3) = m ((c : Thread nD τ).loc main_arg3) :=
  (B5_of m c main_arg3 (by decide)).trans (B4_arg m c main_arg3 (by decide) (by decide) (by decide) (by decide))
theorem B5_arg4 (c : Dev nD) : B5 m c (Proc.devRef .tc main_arg4) = m ((c : Thread nD τ).loc main_arg4) :=
  (B5_of m c main_arg4 (by decide)).trans (B4_arg m c main_arg4 (by decide) (by decide) (by decide) (by decide))

/-- Hop 1's four stretches write none of these: they are found entering launch 1 as launch 0 left them. -/
theorem B9_arg0 (c : Dev nD) : B9 m c (Proc.devRef .tc main_arg0) = m ((c : Thread nD τ).loc main_arg0) :=
  (((StableHlo.after_of_writes_sub hostOps1_3 _ hostOps1_3_writes (r := main_arg0) (by decide)).trans
      ((StableHlo.after_of_writes_sub hostOps1_2 _ hostOps1_2_writes (r := main_arg0) (by decide)).trans
        ((StableHlo.after_of_writes_sub hostOps1_1 _ hostOps1_1_writes (r := main_arg0) (by decide)).trans
          (StableHlo.after_of_writes_sub hostOps1 (B5 m c) hostOps1_writes (r := main_arg0) (by decide)))))).trans (B5_arg0 m c)
theorem B9_arg1 (c : Dev nD) : B9 m c (Proc.devRef .tc main_arg1) = m ((c : Thread nD τ).loc main_arg1) :=
  (((StableHlo.after_of_writes_sub hostOps1_3 _ hostOps1_3_writes (r := main_arg1) (by decide)).trans
      ((StableHlo.after_of_writes_sub hostOps1_2 _ hostOps1_2_writes (r := main_arg1) (by decide)).trans
        ((StableHlo.after_of_writes_sub hostOps1_1 _ hostOps1_1_writes (r := main_arg1) (by decide)).trans
          (StableHlo.after_of_writes_sub hostOps1 (B5 m c) hostOps1_writes (r := main_arg1) (by decide)))))).trans (B5_arg1 m c)
theorem B9_arg2 (c : Dev nD) : B9 m c (Proc.devRef .tc main_arg2) = m ((c : Thread nD τ).loc main_arg2) :=
  (((StableHlo.after_of_writes_sub hostOps1_3 _ hostOps1_3_writes (r := main_arg2) (by decide)).trans
      ((StableHlo.after_of_writes_sub hostOps1_2 _ hostOps1_2_writes (r := main_arg2) (by decide)).trans
        ((StableHlo.after_of_writes_sub hostOps1_1 _ hostOps1_1_writes (r := main_arg2) (by decide)).trans
          (StableHlo.after_of_writes_sub hostOps1 (B5 m c) hostOps1_writes (r := main_arg2) (by decide)))))).trans (B5_arg2 m c)
theorem B9_arg3 (c : Dev nD) : B9 m c (Proc.devRef .tc main_arg3) = m ((c : Thread nD τ).loc main_arg3) :=
  (((StableHlo.after_of_writes_sub hostOps1_3 _ hostOps1_3_writes (r := main_arg3) (by decide)).trans
      ((StableHlo.after_of_writes_sub hostOps1_2 _ hostOps1_2_writes (r := main_arg3) (by decide)).trans
        ((StableHlo.after_of_writes_sub hostOps1_1 _ hostOps1_1_writes (r := main_arg3) (by decide)).trans
          (StableHlo.after_of_writes_sub hostOps1 (B5 m c) hostOps1_writes (r := main_arg3) (by decide)))))).trans (B5_arg3 m c)
theorem B9_arg4 (c : Dev nD) : B9 m c (Proc.devRef .tc main_arg4) = m ((c : Thread nD τ).loc main_arg4) :=
  (((StableHlo.after_of_writes_sub hostOps1_3 _ hostOps1_3_writes (r := main_arg4) (by decide)).trans
      ((StableHlo.after_of_writes_sub hostOps1_2 _ hostOps1_2_writes (r := main_arg4) (by decide)).trans
        ((StableHlo.after_of_writes_sub hostOps1_1 _ hostOps1_1_writes (r := main_arg4) (by decide)).trans
          (StableHlo.after_of_writes_sub hostOps1 (B5 m c) hostOps1_writes (r := main_arg4) (by decide)))))).trans (B5_arg4 m c)
theorem B9_out0 (c : Dev nD) : B9 m c (Proc.devRef .tc main_v13) = left0 m c :=
  (((StableHlo.after_of_writes_sub hostOps1_3 _ hostOps1_3_writes (r := main_v13) (by decide)).trans
      ((StableHlo.after_of_writes_sub hostOps1_2 _ hostOps1_2_writes (r := main_v13) (by decide)).trans
        ((StableHlo.after_of_writes_sub hostOps1_1 _ hostOps1_1_writes (r := main_v13) (by decide)).trans
          (StableHlo.after_of_writes_sub hostOps1 (B5 m c) hostOps1_writes (r := main_v13) (by decide)))))).trans (B5_out m c)

/-- The same through hop 2's stretches. -/
theorem B14_arg1 (c : Dev nD) : B14 m c (Proc.devRef .tc main_arg1) = m ((c : Thread nD τ).loc main_arg1) :=
  (((StableHlo.after_of_writes_sub hostOps2_3 _ hostOps2_3_writes (r := main_arg1) (by decide)).trans
      ((StableHlo.after_of_writes_sub hostOps2_2 _ hostOps2_2_writes (r := main_arg1) (by decide)).trans
        ((StableHlo.after_of_writes_sub hostOps2_1 _ hostOps2_1_writes (r := main_arg1) (by decide)).trans
          (StableHlo.after_of_writes_sub hostOps2 (B10 m c) hostOps2_writes (r := main_arg1) (by decide)))))).trans ((B10_of m c main_arg1 (by decide)).trans (B9_arg1 m c))
theorem B14_out0 (c : Dev nD) : B14 m c (Proc.devRef .tc main_v13) = left0 m c :=
  (((StableHlo.after_of_writes_sub hostOps2_3 _ hostOps2_3_writes (r := main_v13) (by decide)).trans
      ((StableHlo.after_of_writes_sub hostOps2_2 _ hostOps2_2_writes (r := main_v13) (by decide)).trans
        ((StableHlo.after_of_writes_sub hostOps2_1 _ hostOps2_1_writes (r := main_v13) (by decide)).trans
          (StableHlo.after_of_writes_sub hostOps2 (B10 m c) hostOps2_writes (r := main_v13) (by decide)))))).trans ((B10_of m c main_v13 (by decide)).trans (B9_out0 m c))
theorem B14_out1 (c : Dev nD) : B14 m c (Proc.devRef .tc main_v27) = left1 m c :=
  (((StableHlo.after_of_writes_sub hostOps2_3 _ hostOps2_3_writes (r := main_v27) (by decide)).trans
      ((StableHlo.after_of_writes_sub hostOps2_2 _ hostOps2_2_writes (r := main_v27) (by decide)).trans
        ((StableHlo.after_of_writes_sub hostOps2_1 _ hostOps2_1_writes (r := main_v27) (by decide)).trans
          (StableHlo.after_of_writes_sub hostOps2 (B10 m c) hostOps2_writes (r := main_v27) (by decide)))))).trans (B10_out m c)

/-! ## The walks entering the three launches, and the stacked result -/

/-- Entering launch 0 its input array holds hop 0's walk of the initial entity scores. -/
theorem walk0 (c : Dev nD) :
    B4 m c (Proc.devRef .tc main_v12)
      = kwalk (F := F) (m ((c : Thread nD τ).loc main_arg1)) (relRow0 (m ((c : Thread nD τ).loc main_arg0)))
          (m ((c : Thread nD τ).loc main_arg2)) (m ((c : Thread nD τ).loc main_arg3)) (m ((c : Thread nD τ).loc main_arg4)) :=
  hop0_read (V0 m c)

/-- Entering launch 1 its input array holds hop 1's walk of launch 0's output. -/
theorem walk1 (c : Dev nD) :
    B9 m c (Proc.devRef .tc main_v26)
      = kwalk (F := F) (left0 m c) (relRow1 (m ((c : Thread nD τ).loc main_arg0)))
          (m ((c : Thread nD τ).loc main_arg2)) (m ((c : Thread nD τ).loc main_arg3)) (m ((c : Thread nD τ).loc main_arg4)) := by
  refine (hop1_read (B5 m c)).trans ?_
  rw [B5_out, B5_arg0, B5_arg2, B5_arg3, B5_arg4]

/-- Entering launch 2 its input array holds hop 2's walk of launch 1's output. -/
theorem walk2 (c : Dev nD) :
    B14 m c (Proc.devRef .tc main_v40)
      = kwalk (F := F) (left1 m c) (relRow2 (m ((c : Thread nD τ).loc main_arg0)))
          (m ((c : Thread nD τ).loc main_arg2)) (m ((c : Thread nD τ).loc main_arg3)) (m ((c : Thread nD τ).loc main_arg4)) := by
  refine (hop2_read (B10 m c)).trans ?_
  rw [B10_out, B10_of m c main_arg0 (by decide), B10_of m c main_arg2 (by decide), B10_of m c main_arg3 (by decide),
    B10_of m c main_arg4 (by decide), B9_arg0, B9_arg2, B9_arg3, B9_arg4]

/-- The result buffer ends at the initial entity scores and the three launches' outputs side by side. -/
theorem stack_read (c : Dev nD) :
    B16 m c (Proc.devRef .tc main_v46)
      = stack4 (F := F) (m ((c : Thread nD τ).loc main_arg1)) (left0 m c) (left1 m c) (left2 m c) := by
  refine (stack_after (B15 m c)).trans ?_
  rw [B15_out, B15_of m c main_arg1 (by decide), B15_of m c main_v13 (by decide), B15_of m c main_v27 (by decide),
    B14_arg1, B14_out0, B14_out1]

end Cert.KernelIdeal.Hand

end
-- ==== Proof.Spec.lean ====
/-
  The walk's two pure pieces, index by index on the extended reals, over the literal extents of this problem:
  16 batch rows, 100000 entities, 3200000 edges.
  * `walked score tl`: entity `e` of batch row `b` collects the score of every edge whose tail index is `e`.
  * `normRows w`: every entry divided by its row's sum plus the constant 0x358637BD (the f32 nearest 1e-6).
-/
import Idealize.ShloMosaic.PureOps
import Idealize.ShloMosaic.PureOps.Ideal
import Idealize.ShloMosaic.Lib.ValueIdx

noncomputable section

namespace Cert.Walk

open Idealize.ShloMosaic Idealize.ShloMosaic.ValueIdx

/-- batch × entities -/
abbrev SBE : Shape := ⟨2, ![16, 100000]⟩
/-- entities × batch -/
abbrev SEB : Shape := ⟨2, ![100000, 16]⟩
/-- batch × edges -/
abbrev SBT : Shape := ⟨2, ![16, 3200000]⟩
/-- edges × batch -/
abbrev STB : Shape := ⟨2, ![3200000, 16]⟩
/-- edges -/
abbrev ST : Shape := ⟨1, ![3200000]⟩
/-- edges as one column -/
abbrev ST1 : Shape := ⟨2, ![3200000, 1]⟩

/-- Entity `i 1` of batch row `i 0` collects the score of every edge whose tail index, read signed, is that entity. -/
def walked (score : SBT.Idx → EReal) (tl : IVec ST 32) : SBE.Idx → EReal :=
  fun i => ∑ t ∈ Finset.univ.filter (fun t : Fin 3200000 => (tl (ix1 t)).toInt = ((i 1).val : Int)), score (ix2 (i 0) t)

/-- Every entry over its row's sum plus the f32 constant nearest 1e-6. -/
def normRows (w : SBE.Idx → EReal) : SBE.Idx → EReal :=
  fun i => Ideal.div (w i) ((∑ j : Fin 100000, w (ix2 (i 0) j)) + Ideal.ofBits .f32 0x358637BD#32)

/-- An index array is in range of an axis of extent `N`: every entry, read unsigned, is below `N`
    (for `N < 2 ^ 31` this says the signed entry lies in `[0, N)`). -/
def InRange (N : Nat) (h : IVec ST 32) : Prop := ∀ t : Fin 3200000, (h (ix1 t)).toNat < N

end Cert.Walk

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.NormPayload.lean ====
/-
  The normalizing kernel's stored value at one entry of its 8 × 100000 block: the entry over (its row's sum plus the
  constant 0x358637BD). The three launches run the same body, so their payloads are one function.
-/
import proofs.«415690_j12378095747627_3_alg».proof.Proof.Spec
import proofs.«415690_j12378095747627_3_alg».proof.Proof.LibColumns
import proofs.«415690_j12378095747627_3_alg».proof.Proof.Gen.KernelIdeal.Skeleton
import Idealize.ShloMosaic.PureOps.Ideal.Laws
import Idealize.ShloMosaic.Lib.Pipeline.Value

noncomputable section

namespace Cert.KernelIdeal.Norm

open Idealize.ShloMosaic Idealize.ShloMosaic.ValueIdx Cert.KernelIdeal Cert.KernelIdeal.Gen

/-- Summing an 8 × 100000 block over its second axis leaves the rows: the block index that lies over row `p` of the
    result with `k` put back on the summed axis is `(p, k)`. Both coordinates compute at the literal axes. -/
theorem lift_row (p : Fin 8) (k : Fin 100000) :
    reduces_S8x100000_S8.lift (ix1 p) k = ix2 p k := by
  funext c
  match c with
  | ⟨0, _⟩ => rfl
  | ⟨1, _⟩ => rfl

/-- The reduction of the block over its second axis, started from the word of +0 (the neutral element of the sum),
    read at row `p`: the sum of row `p`'s 100000 entries. A sum over one axis is the sum over that axis's coordinate
    of the block at the index with the coordinate inserted, and that index is `(p, j)`. -/
theorem rowSum_apply (x : FVec Ideal S8x100000 .f32) (p : Fin 8) :
    multiReduction (F := Ideal) .add [1] S8 x 0x00000000#32 reduces_S8x100000_S8 (.inl rfl) rfl (ix1 p)
      = ∑ j : Fin 100000, x (ix2 p j) := by
  refine (Ideal.multiReduction_add_single x _ reduces_S8x100000_S8 (.inl rfl) rfl (ix1 p)).trans ?_
  exact Finset.sum_congr rfl fun k _ => congrArg x (lift_row p k)

/-- Entry (p, q) of the stored block is entry (p, q) of the loaded block over (row p's sum plus the constant). -/
theorem pay0_apply (x : Vec Ideal S8x100000 .f32) (p : Fin 8) (q : Fin 100000) :
    k0_pay1 (F := Ideal) x (ix2 p q)
      = Ideal.div (x (ix2 p q)) ((∑ j : Fin 100000, x (ix2 p j)) + Ideal.ofBits .f32 0x358637BD#32) := by
  unfold k0_pay1
  -- The quotient is entrywise; the first cast keeps the shape, so the numerator is the loaded entry. The denominator
  -- is the [8, 1] column (row sums plus the constant) laid along every column, read at row p: the column's entry is
  -- the sum of the row-sum vector cast to a column, which at (p, 0) is the vector at p, and the constant.
  rw [divf_apply, shapeCast_self, Cert.Lib.Columns.broadcastTo_a1_ab_apply, addf_apply, broadcast_apply,
    Cert.Lib.Columns.shapeCast_a_a1_apply, rowSum_apply]
  -- What is left differs only in how the constant's word is read as an extended real, the same reading by definition.
  rfl

theorem pay1_eq : @k1_pay1 = @k0_pay1 := rfl
theorem pay2_eq : @k2_pay1 = @k0_pay1 := rfl

/-- The same entry of launch 1's and launch 2's stored block: their payloads are launch 0's. -/
theorem pay1_apply (x : Vec Ideal S8x100000 .f32) (p : Fin 8) (q : Fin 100000) :
    k1_pay1 (F := Ideal) x (ix2 p q)
      = Ideal.div (x (ix2 p q)) ((∑ j : Fin 100000, x (ix2 p j)) + Ideal.ofBits .f32 0x358637BD#32) :=
  pay0_apply x p q
theorem pay2_apply (x : Vec Ideal S8x100000 .f32) (p : Fin 8) (q : Fin 100000) :
    k2_pay1 (F := Ideal) x (ix2 p q)
      = Ideal.div (x (ix2 p q)) ((∑ j : Fin 100000, x (ix2 p j)) + Ideal.ofBits .f32 0x358637BD#32) :=
  pay0_apply x p q

end Cert.KernelIdeal.Norm

end
-- ==== Proof.NormValue0.lean ====
/-
  What launch 0 leaves in its output array, as one function of its input array: the two blocks of 8 rows tile the 16
  rows, each point writes back its block normalized row by row, and a row's sum lies inside its block; so the array ends
  at the input array with every entry divided by (its row's sum plus the constant).
-/
import proofs.«415690_j12378095747627_3_alg».proof.Proof.NormLaunch0
import proofs.«415690_j12378095747627_3_alg».proof.Proof.NormPayload

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Walk

namespace Left0

/-- The grid has two points. -/
theorem point_lt (t : Fin cfg0.N) : t.val < 2 := lt_of_lt_of_eq t.isLt N_0

/-- The body's one rectangle starts at the block's origin. -/
theorem zero_offsets : (![0, 0] : Fin 2 → Nat) = fun _ => 0 :=
  funext fun a => by match a with | ⟨0, _⟩ => rfl | ⟨1, _⟩ => rfl

/-- The printed index maps, decided over the grid: at point `t` both windows sit at block row `t`, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- If the 8 × 100000 block `x` is rows 8t … 8t + 7 of the 16 × 100000 array `W`, the body's stored value at (p, q) is
    the array's normalized entry (8t + p, q): the entries agree, and row p of the block has the same 100000 entries as
    row 8t + p of the array, so the two row sums are one sum. -/
theorem point_eq (W : SBE.Idx → EReal) (x : Vec Ideal S8x100000 .f32) (t : Nat) (ht : t < 2)
    (hx : ∀ (p : Fin 8) (q : Fin 100000), x (ix2 p q) = W (ix2 (⟨8 * t + p.val, by omega⟩ : Fin 16) q))
    (p : Fin 8) (q : Fin 100000) :
    k0_pay1 (F := Ideal) x (ix2 p q) = normRows W (ix2 (⟨8 * t + p.val, by omega⟩ : Fin 16) q) := by
  rw [Norm.pay0_apply]
  show Ideal.div (x (ix2 p q)) ((∑ j : Fin 100000, x (ix2 p j)) + _)
    = Ideal.div (W (ix2 _ q)) ((∑ j : Fin 100000, W (ix2 _ j)) + _)
  rw [hx p q, Finset.sum_congr rfl fun j _ => hx p j]

/-- The same at any block index `j` and the array index `k` with coordinates (8t + j₀, j₁). -/
theorem point_eq_idx (W : SBE.Idx → EReal) (x : Vec Ideal S8x100000 .f32) (t : Nat) (ht : t < 2)
    (hx : ∀ (p : Fin 8) (q : Fin 100000), x (ix2 p q) = W (ix2 (⟨8 * t + p.val, by omega⟩ : Fin 16) q))
    (j : (⟨2, ![8, 100000]⟩ : Shape).Idx) (k : (⟨2, ![16, 100000]⟩ : Shape).Idx)
    (hk0 : (k 0).val = 8 * t + (j 0).val) (hk1 : (k 1).val = (j 1).val) :
    k0_pay1 (F := Ideal) x j = normRows W k := by
  obtain ⟨p, q, rfl⟩ : ∃ (p : Fin 8) (q : Fin 100000), j = ix2 p q := ⟨j 0, j 1, eq_ix2 j⟩
  obtain ⟨r, s, rfl⟩ : ∃ (r : Fin 16) (s : Fin 100000), k = ix2 r s := ⟨k 0, k 1, eq_ix2 k⟩
  rw [point_eq W x t ht hx]
  have e0 : r = ⟨8 * t + p.val, by omega⟩ := Fin.ext hk0
  have e1 : s = q := Fin.ext hk1
  rw [e0, e1]

variable (V : (c : Dev nD) → (b : Ref sig .tc) → Buf (Elt Ideal) ((c : Thread nD τ).loc b))

/-- The input block at point `t` is rows 8t … 8t + 7 of the input array: a block's coordinate on an axis is
    block index × block size + the coordinate inside the block. -/
theorem iblk0_apply (c : Dev nD) (t : Fin cfg0.N) (p : Fin 8) (q : Fin 100000) :
    (iblk0 V c 0 t : Vec Ideal S8x100000 .f32) (ix2 p q)
      = (V c main_v12 : SBE.Idx → EReal) (ix2 (⟨8 * t.val + p.val, by have := point_lt t; omega⟩ : Fin 16) q) := by
  unfold iblk0
  rw [View.read_apply]
  show V c main_v12 _ = V c main_v12 _
  congr 1
  funext a
  apply Fin.ext
  match a with
  | ⟨0, _⟩ => show win0_0.index t 0 * 8 + 1 * p.val = 8 * t.val + p.val; rw [(block_index t).1]; omega
  | ⟨1, _⟩ => show win0_0.index t 1 * 100000 + 1 * q.val = q.val; rw [(block_index t).2.1]; omega

/-- Block `t` of an array of the output's shape, read at `j`, is the array at `j`'s place in the array. -/
theorem read_blk_apply (G : SBE.Idx → EReal) (t : Fin cfg0.N) (j : ((cfg0.win 1).xblock (grid0.coords t)).Idx) :
    ((cfg0.win 1).blk t).view.read (Elt Ideal) G j = G (((cfg0.win 1).blk t).view.emb j) := rfl

/-- What point `t` writes back is block `t` of the input array with its rows normalized: the body's one store over
    the whole block leaves its payload of the loaded input block, and that payload at `j` is the normalized array at
    (8t + j₀, j₁), which is where block `t` of the output puts `j`. -/
theorem flushed_eq (c : Dev nD) (t : Fin cfg0.N) :
    (dat0 (F := Ideal) V c).flushed 1 t = ((cfg0.win 1).blk t).view.read (Elt Ideal) (normRows (V c main_v12)) := by
  show (cfg0.win 1).cut (grid0.coords t) ((dat0 V c).after 1 t) = _
  rw [after0_1]
  unfold out0_1
  rw [View.canon_unit_zero zero_offsets]
  simp only [View.ld_unit_zero (S := S8x100000) zero_offsets]
  funext j
  refine Eq.trans ?_ (read_blk_apply (normRows (V c main_v12)) t j).symm
  show k0_pay1 (F := Ideal) (iblk0 V c 0 t) j = _
  refine point_eq_idx (V c main_v12) (iblk0 V c 0 t) t.val (point_lt t) (fun p q => iblk0_apply V c t p q) j _ ?_ ?_
  · show win0_1.index t 0 * 8 + 1 * (j 0).val = 8 * t.val + (j 0).val; rw [(block_index t).2.2.1]; omega
  · show win0_1.index t 1 * 100000 + 1 * (j 1).val = (j 1).val; rw [(block_index t).2.2.2]; omega

/-- An index of the output array is in point `t`'s block iff each coordinate is in the block's range on its axis. -/
theorem mem_blk (t : Fin cfg0.N) (i : S16x100000.Idx) :
    i ∈ ((cfg0.win 1).blk t).view.set ↔ ∀ a : Fin 2, win0_1.index t a * S8x100000.size a ≤ (i a).val
      ∧ (i a).val < win0_1.index t a * S8x100000.size a + S8x100000.size a := by
  show i ∈ ((View.whole main_v13).slice (win0_1.rect t)).set ↔ _
  rw [View.set_slice_whole, Rect.mem_set_unit]
  exact Iff.rfl

/-- The two blocks of 8 rows tile the 16 rows: row r lies in the block of point r / 8, and every column in its one
    block of 100000 columns; every point writes its block back. -/
theorem covered (i : S16x100000.Idx) :
    ∃ t : Fin cfg0.N, (cfg0.win 1).flush t = true ∧ i ∈ ((cfg0.win 1).blk t).view.set := by
  have hi0 : (i 0).val < 16 := (i 0).isLt
  have hi1 : (i 1).val < 100000 := (i 1).isLt
  refine ⟨⟨(i 0).val / 8, lt_of_lt_of_eq (by omega) N_0.symm⟩, flush0_1 _, ?_⟩
  rw [mem_blk]
  intro a
  obtain ⟨-, -, e0, e1⟩ := block_index ⟨(i 0).val / 8, lt_of_lt_of_eq (by omega) N_0.symm⟩
  match a with
  | ⟨0, _⟩ =>
    show win0_1.index _ 0 * 8 ≤ (i 0).val ∧ (i 0).val < win0_1.index _ 0 * 8 + 8
    rw [e0]; show (i 0).val / 8 * 8 ≤ (i 0).val ∧ (i 0).val < (i 0).val / 8 * 8 + 8; omega
  | ⟨1, _⟩ =>
    show win0_1.index _ 1 * 100000 ≤ (i 1).val ∧ (i 1).val < win0_1.index _ 1 * 100000 + 100000
    rw [e1]; omega

end Left0

/-- The output array after launch 0 is the input array with its rows normalized. -/
theorem left0_eq (V : (c : Dev nD) → (b : Ref sig .tc) → Buf (Elt Ideal) ((c : Thread nD τ).loc b)) (c : Dev nD) :
    (dat0 (F := Ideal) V c).arrAt 1 cfg0.N = normRows (V c main_v12) :=
  (dat0 (F := Ideal) V c).arrAt_eq_of_cover 1 (normRows (V c main_v12)) (fun t _ => Left0.flushed_eq V c t) Left0.covered

end Cert.KernelIdeal.Hand

end
-- ==== Proof.NormValue1.lean ====
/-
  What launch 1 leaves in its output array, as one function of its input array: the two blocks of 8 rows tile the 16
  rows, each point writes back its block normalized row by row, and a row's sum lies inside its block; so the array ends
  at the input array with every entry divided by (its row's sum plus the constant).
-/
import proofs.«415690_j12378095747627_3_alg».proof.Proof.NormLaunch1
import proofs.«415690_j12378095747627_3_alg».proof.Proof.NormPayload

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Walk

namespace Left1

/-- The grid has two points. -/
theorem point_lt (t : Fin cfg1.N) : t.val < 2 := lt_of_lt_of_eq t.isLt N_1

/-- The body's one rectangle starts at the block's origin. -/
theorem zero_offsets : (![0, 0] : Fin 2 → Nat) = fun _ => 0 :=
  funext fun a => by match a with | ⟨0, _⟩ => rfl | ⟨1, _⟩ => rfl

/-- The printed index maps, decided over the grid: at point `t` both windows sit at block row `t`, block column 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- If the 8 × 100000 block `x` is rows 8t … 8t + 7 of the 16 × 100000 array `W`, the body's stored value at (p, q) is
    the array's normalized entry (8t + p, q): the entries agree, and row p of the block has the same 100000 entries as
    row 8t + p of the array, so the two row sums are one sum. -/
theorem point_eq (W : SBE.Idx → EReal) (x : Vec Ideal S8x100000 .f32) (t : Nat) (ht : t < 2)
    (hx : ∀ (p : Fin 8) (q : Fin 100000), x (ix2 p q) = W (ix2 (⟨8 * t + p.val, by omega⟩ : Fin 16) q))
    (p : Fin 8) (q : Fin 100000) :
    k1_pay1 (F := Ideal) x (ix2 p q) = normRows W (ix2 (⟨8 * t + p.val, by omega⟩ : Fin 16) q) := by
  rw [Norm.pay1_apply]
  show Ideal.div (x (ix2 p q)) ((∑ j : Fin 100000, x (ix2 p j)) + _)
    = Ideal.div (W (ix2 _ q)) ((∑ j : Fin 100000, W (ix2 _ j)) + _)
  rw [hx p q, Finset.sum_congr rfl fun j _ => hx p j]

/-- The same at any block index `j` and the array index `k` with coordinates (8t + j₀, j₁). -/
theorem point_eq_idx (W : SBE.Idx → EReal) (x : Vec Ideal S8x100000 .f32) (t : Nat) (ht : t < 2)
    (hx : ∀ (p : Fin 8) (q : Fin 100000), x (ix2 p q) = W (ix2 (⟨8 * t + p.val, by omega⟩ : Fin 16) q))
    (j : (⟨2, ![8, 100000]⟩ : Shape).Idx) (k : (⟨2, ![16, 100000]⟩ : Shape).Idx)
    (hk0 : (k 0).val = 8 * t + (j 0).val) (hk1 : (k 1).val = (j 1).val) :
    k1_pay1 (F := Ideal) x j = normRows W k := by
  obtain ⟨p, q, rfl⟩ : ∃ (p : Fin 8) (q : Fin 100000), j = ix2 p q := ⟨j 0, j 1, eq_ix2 j⟩
  obtain ⟨r, s, rfl⟩ : ∃ (r : Fin 16) (s : Fin 100000), k = ix2 r s := ⟨k 0, k 1, eq_ix2 k⟩
  rw [point_eq W x t ht hx]
  have e0 : r = ⟨8 * t + p.val, by omega⟩ := Fin.ext hk0
  have e1 : s = q := Fin.ext hk1
  rw [e0, e1]

variable (V : (c : Dev nD) → (b : Ref sig .tc) → Buf (Elt Ideal) ((c : Thread nD τ).loc b))

/-- The input block at point `t` is rows 8t … 8t + 7 of the input array: a block's coordinate on an axis is
    block index × block size + the coordinate inside the block. -/
theorem iblk1_apply (c : Dev nD) (t : Fin cfg1.N) (p : Fin 8) (q : Fin 100000) :
    (iblk1 V c 0 t : Vec Ideal S8x100000 .f32) (ix2 p q)
      = (V c main_v26 : SBE.Idx → EReal) (ix2 (⟨8 * t.val + p.val, by have := point_lt t; omega⟩ : Fin 16) q) := by
  unfold iblk1
  rw [View.read_apply]
  show V c main_v26 _ = V c main_v26 _
  congr 1
  funext a
  apply Fin.ext
  match a with
  | ⟨0, _⟩ => show win1_0.index t 0 * 8 + 1 * p.val = 8 * t.val + p.val; rw [(block_index t).1]; omega
  | ⟨1, _⟩ => show win1_0.index t 1 * 100000 + 1 * q.val = q.val; rw [(block_index t).2.1]; omega

/-- Block `t` of an array of the output's shape, read at `j`, is the array at `j`'s place in the array. -/
theorem read_blk_apply (G : SBE.Idx → EReal) (t : Fin cfg1.N) (j : ((cfg1.win 1).xblock (grid1.coords t)).Idx) :
    ((cfg1.win 1).blk t).view.read (Elt Ideal) G j = G (((cfg1.win 1).blk t).view.emb j) := rfl

/-- What point `t` writes back is block `t` of the input array with its rows normalized: the body's one store over
    the whole block leaves its payload of the loaded input block, and that payload at `j` is the normalized array at
    (8t + j₀, j₁), which is where block `t` of the output puts `j`. -/
theorem flushed_eq (c : Dev nD) (t : Fin cfg1.N) :
    (dat1 (F := Ideal) V c).flushed 1 t = ((cfg1.win 1).blk t).view.read (Elt Ideal) (normRows (V c main_v26)) := by
  show (cfg1.win 1).cut (grid1.coords t) ((dat1 V c).after 1 t) = _
  rw [after1_1]
  unfold out1_1
  rw [View.canon_unit_zero zero_offsets]
  simp only [View.ld_unit_zero (S := S8x100000) zero_offsets]
  funext j
  refine Eq.trans ?_ (read_blk_apply (normRows (V c main_v26)) t j).symm
  show k1_pay1 (F := Ideal) (iblk1 V c 0 t) j = _
  refine point_eq_idx (V c main_v26) (iblk1 V c 0 t) t.val (point_lt t) (fun p q => iblk1_apply V c t p q) j _ ?_ ?_
  · show win1_1.index t 0 * 8 + 1 * (j 0).val = 8 * t.val + (j 0).val; rw [(block_index t).2.2.1]; omega
  · show win1_1.index t 1 * 100000 + 1 * (j 1).val = (j 1).val; rw [(block_index t).2.2.2]; omega

/-- An index of the output array is in point `t`'s block iff each coordinate is in the block's range on its axis. -/
theorem mem_blk (t : Fin cfg1.N) (i : S16x100000.Idx) :
    i ∈ ((cfg1.win 1).blk t).view.set ↔ ∀ a : Fin 2, win1_1.index t a * S8x100000.size a ≤ (i a).val
      ∧ (i a).val < win1_1.index t a * S8x100000.size a + S8x100000.size a := by
  show i ∈ ((View.whole main_v13).slice (win1_1.rect t)).set ↔ _
  rw [View.set_slice_whole, Rect.mem_set_unit]
  exact Iff.rfl

/-- The two blocks of 8 rows tile the 16 rows: row r lies in the block of point r / 8, and every column in its one
    block of 100000 columns; every point writes its block back. -/
theorem covered (i : S16x100000.Idx) :
    ∃ t : Fin cfg1.N, (cfg1.win 1).flush t = true ∧ i ∈ ((cfg1.win 1).blk t).view.set := by
  have hi0 : (i 0).val < 16 := (i 0).isLt
  have hi1 : (i 1).val < 100000 := (i 1).isLt
  refine ⟨⟨(i 0).val / 8, lt_of_lt_of_eq (by omega) N_1.symm⟩, flush1_1 _, ?_⟩
  rw [mem_blk]
  intro a
  obtain ⟨-, -, e0, e1⟩ := block_index ⟨(i 0).val / 8, lt_of_lt_of_eq (by omega) N_1.symm⟩
  match a with
  | ⟨0, _⟩ =>
    show win1_1.index _ 0 * 8 ≤ (i 0).val ∧ (i 0).val < win1_1.index _ 0 * 8 + 8
    rw [e0]; show (i 0).val / 8 * 8 ≤ (i 0).val ∧ (i 0).val < (i 0).val / 8 * 8 + 8; omega
  | ⟨1, _⟩ =>
    show win1_1.index _ 1 * 100000 ≤ (i 1).val ∧ (i 1).val < win1_1.index _ 1 * 100000 + 100000
    rw [e1]; omega

end Left1

/-- The output array after launch 1 is the input array with its rows normalized. -/
theorem left1_eq (V : (c : Dev nD) → (b : Ref sig .tc) → Buf (Elt Ideal) ((c : Thread nD τ).loc b)) (c : Dev nD) :
    (dat1 (F := Ideal) V c).arrAt 1 cfg1.N = normRows (V c main_v26) :=
  (dat1 (F := Ideal) V c).arrAt_eq_of_cover 1 (normRows (V c main_v26)) (fun t _ => Left1.flushed_eq V c t) Left1.covered

end Cert.KernelIdeal.Hand

end
-- ==== Proof.NormValue2.lean ====
/-
  What launch 2 leaves in its output array, as one function of its input array: the two blocks of 8 rows tile the 16
  rows, each point writes back its block normalized row by row, and a row's sum lies inside its block; so the array ends
  at the input array with every entry divided by (its row's sum plus the constant).
-/
import proofs.«415690_j12378095747627_3_alg».proof.Proof.NormLaunch2
import proofs.«415690_j12378095747627_3_alg».proof.Proof.NormPayload

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.Walk

namespace Left2

/-- The grid has two points. -/
theorem point_lt (t : Fin cfg2.N) : t.val < 2 := lt_of_lt_of_eq t.isLt N_2

/-- The body's one rectangle starts at the block's origin. -/
theorem zero_offsets : (![0, 0] : Fin 2 → Nat) = fun _ => 0 :=
  funext fun a => by match a with | ⟨0, _⟩ => rfl | ⟨1, _⟩ => rfl

/-- The printed index maps, decided over the grid: at point `t` both windows sit at block row `t`, block column 0. -/
theorem block_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- If the 8 × 100000 block `x` is rows 8t … 8t + 7 of the 16 × 100000 array `W`, the body's stored value at (p, q) is
    the array's normalized entry (8t + p, q): the entries agree, and row p of the block has the same 100000 entries as
    row 8t + p of the array, so the two row sums are one sum. -/
theorem point_eq (W : SBE.Idx → EReal) (x : Vec Ideal S8x100000 .f32) (t : Nat) (ht : t < 2)
    (hx : ∀ (p : Fin 8) (q : Fin 100000), x (ix2 p q) = W (ix2 (⟨8 * t + p.val, by omega⟩ : Fin 16) q))
    (p : Fin 8) (q : Fin 100000) :
    k2_pay1 (F := Ideal) x (ix2 p q) = normRows W (ix2 (⟨8 * t + p.val, by omega⟩ : Fin 16) q) := by
  rw [Norm.pay2_apply]
  show Ideal.div (x (ix2 p q)) ((∑ j : Fin 100000, x (ix2 p j)) + _)
    = Ideal.div (W (ix2 _ q)) ((∑ j : Fin 100000, W (ix2 _ j)) + _)
  rw [hx p q, Finset.sum_congr rfl fun j _ => hx p j]

/-- The same at any block index `j` and the array index `k` with coordinates (8t + j₀, j₁). -/
theorem point_eq_idx (W : SBE.Idx → EReal) (x : Vec Ideal S8x100000 .f32) (t : Nat) (ht : t < 2)
    (hx : ∀ (p : Fin 8) (q : Fin 100000), x (ix2 p q) = W (ix2 (⟨8 * t + p.val, by omega⟩ : Fin 16) q))
    (j : (⟨2, ![8, 100000]⟩ : Shape).Idx) (k : (⟨2, ![16, 100000]⟩ : Shape).Idx)
    (hk0 : (k 0).val = 8 * t + (j 0).val) (hk1 : (k 1).val = (j 1).val) :
    k2_pay1 (F := Ideal) x j = normRows W k := by
  obtain ⟨p, q, rfl⟩ : ∃ (p : Fin 8) (q : Fin 100000), j = ix2 p q := ⟨j 0, j 1, eq_ix2 j⟩
  obtain ⟨r, s, rfl⟩ : ∃ (r : Fin 16) (s : Fin 100000), k = ix2 r s := ⟨k 0, k 1, eq_ix2 k⟩
  rw [point_eq W x t ht hx]
  have e0 : r = ⟨8 * t + p.val, by omega⟩ := Fin.ext hk0
  have e1 : s = q := Fin.ext hk1
  rw [e0, e1]

variable (V : (c : Dev nD) → (b : Ref sig .tc) → Buf (Elt Ideal) ((c : Thread nD τ).loc b))

/-- The input block at point `t` is rows 8t … 8t + 7 of the input array: a block's coordinate on an axis is
    block index × block size + the coordinate inside the block. -/
theorem iblk2_apply (c : Dev nD) (t : Fin cfg2.N) (p : Fin 8) (q : Fin 100000) :
    (iblk2 V c 0 t : Vec Ideal S8x100000 .f32) (ix2 p q)
      = (V c main_v40 : SBE.Idx → EReal) (ix2 (⟨8 * t.val + p.val, by have := point_lt t; omega⟩ : Fin 16) q) := by
  unfold iblk2
  rw [View.read_apply]
  show V c main_v40 _ = V c main_v40 _
  congr 1
  funext a
  apply Fin.ext
  match a with
  | ⟨0, _⟩ => show win2_0.index t 0 * 8 + 1 * p.val = 8 * t.val + p.val; rw [(block_index t).1]; omega
  | ⟨1, _⟩ => show win2_0.index t 1 * 100000 + 1 * q.val = q.val; rw [(block_index t).2.1]; omega

/-- Block `t` of an array of the output's shape, read at `j`, is the array at `j`'s place in the array. -/
theorem read_blk_apply (G : SBE.Idx → EReal) (t : Fin cfg2.N) (j : ((cfg2.win 1).xblock (grid2.coords t)).Idx) :
    ((cfg2.win 1).blk t).view.read (Elt Ideal) G j = G (((cfg2.win 1).blk t).view.emb j) := rfl

/-- What point `t` writes back is block `t` of the input array with its rows normalized: the body's one store over
    the whole block leaves its payload of the loaded input block, and that payload at `j` is the normalized array at
    (8t + j₀, j₁), which is where block `t` of the output puts `j`. -/
theorem flushed_eq (c : Dev nD) (t : Fin cfg2.N) :
    (dat2 (F := Ideal) V c).flushed 1 t = ((cfg2.win 1).blk t).view.read (Elt Ideal) (normRows (V c main_v40)) := by
  show (cfg2.win 1).cut (grid2.coords t) ((dat2 V c).after 1 t) = _
  rw [after2_1]
  unfold out2_1
  rw [View.canon_unit_zero zero_offsets]
  simp only [View.ld_unit_zero (S := S8x100000) zero_offsets]
  funext j
  refine Eq.trans ?_ (read_blk_apply (normRows (V c main_v40)) t j).symm
  show k2_pay1 (F := Ideal) (iblk2 V c 0 t) j = _
  refine point_eq_idx (V c main_v40) (iblk2 V c 0 t) t.val (point_lt t) (fun p q => iblk2_apply V c t p q) j _ ?_ ?_
  · show win2_1.index t 0 * 8 + 1 * (j 0).val = 8 * t.val + (j 0).val; rw [(block_index t).2.2.1]; omega
  · show win2_1.index t 1 * 100000 + 1 * (j 1).val = (j 1).val; rw [(block_index t).2.2.2]; omega

/-- An index of the output array is in point `t`'s block iff each coordinate is in the block's range on its axis. -/
theorem mem_blk (t : Fin cfg2.N) (i : S16x100000.Idx) :
    i ∈ ((cfg2.win 1).blk t).view.set ↔ ∀ a : Fin 2, win2_1.index t a * S8x100000.size a ≤ (i a).val
      ∧ (i a).val < win2_1.index t a * S8x100000.size a + S8x100000.size a := by
  show i ∈ ((View.whole main_v13).slice (win2_1.rect t)).set ↔ _
  rw [View.set_slice_whole, Rect.mem_set_unit]
  exact Iff.rfl

/-- The two blocks of 8 rows tile the 16 rows: row r lies in the block of point r / 8, and every column in its one
    block of 100000 columns; every point writes its block back. -/
theorem covered (i : S16x100000.Idx) :
    ∃ t : Fin cfg2.N, (cfg2.win 1).flush t = true ∧ i ∈ ((cfg2.win 1).blk t).view.set := by
  have hi0 : (i 0).val < 16 := (i 0).isLt
  have hi1 : (i 1).val < 100000 := (i 1).isLt
  refine ⟨⟨(i 0).val / 8, lt_of_lt_of_eq (by omega) N_2.symm⟩, flush2_1 _, ?_⟩
  rw [mem_blk]
  intro a
  obtain ⟨-, -, e0, e1⟩ := block_index ⟨(i 0).val / 8, lt_of_lt_of_eq (by omega) N_2.symm⟩
  match a with
  | ⟨0, _⟩ =>
    show win2_1.index _ 0 * 8 ≤ (i 0).val ∧ (i 0).val < win2_1.index _ 0 * 8 + 8
    rw [e0]; show (i 0).val / 8 * 8 ≤ (i 0).val ∧ (i 0).val < (i 0).val / 8 * 8 + 8; omega
  | ⟨1, _⟩ =>
    show win2_1.index _ 1 * 100000 ≤ (i 1).val ∧ (i 1).val < win2_1.index _ 1 * 100000 + 100000
    rw [e1]; omega

end Left2

/-- The output array after launch 2 is the input array with its rows normalized. -/
theorem left2_eq (V : (c : Dev nD) → (b : Ref sig .tc) → Buf (Elt Ideal) ((c : Thread nD τ).loc b)) (c : Dev nD) :
    (dat2 (F := Ideal) V c).arrAt 1 cfg2.N = normRows (V c main_v40) :=
  (dat2 (F := Ideal) V c).arrAt_eq_of_cover 1 (normRows (V c main_v40)) (fun t _ => Left2.flushed_eq V c t) Left2.covered

end Cert.KernelIdeal.Hand

end
-- ==== Proof.InRange.lean ====
/-
  Index arrays in range. An edge's index word `w` with `w.toNat < N` (and `N < 2 ^ 31`) is the signed number
  `w.toNat ∈ [0, N)`: it is not negative, so the wrap "add N where negative" leaves it alone, and it lies between 0 and
  N − 1, so the range test a filling take makes is true at every edge. The precondition of this problem says exactly
  that of the three index arrays.
-/
import proofs.«415690_j12378095747627_3_alg».proof.Proof.Spec
import proofs.«415690_j12378095747627_3_alg».proof.Pre_finite_inputs
import Idealize.ShloMosaic.Lib.ReduceAll
import Idealize.ShloMosaic.Lib.StableHlo.Predicate
import Idealize.ShloMosaic.Lib.Pipeline.Value

noncomputable section

namespace Cert.Walk

open Idealize.ShloMosaic Idealize.ShloMosaic.ValueIdx

abbrev S0 : Shape := ⟨0, ![]⟩
abbrev S1 : Shape := ⟨1, ![1]⟩
abbrev S1x1 : Shape := ⟨2, ![1, 1]⟩

/-- Every entry of an in-range array, at any index, is below `N`. -/
theorem InRange.at {N : Nat} {h : IVec ST 32} (hr : InRange N h) (k : ST.Idx) : (h k).toNat < N := by
  rw [eq_ix1 k]; exact hr (k 0)

/-- A word whose unsigned value is below `N < 2 ^ 31` is not negative: the test "below zero" gives the bit 0. -/
theorem slt_zero_of_lt (N : Nat) (hN : N < 2 ^ 31) (w : BitVec 32) (hw : w.toNat < N) : IntOp.cmpi .slt w 0#32 = 0#1 := by
  apply eq_zero_of_ne_one
  intro hc
  rw [StableHlo.Predicate.slt_iff_toNat (by omega) (by decide)] at hc
  exact absurd hc (Nat.not_lt_zero _)

/-- Such a word passes both halves of the range test `0 ≤ w` and `w ≤ N − 1`. -/
theorem range_bits (N M : Nat) (hM : M + 1 = N) (hN : N < 2 ^ 31) (w : BitVec 32) (hw : w.toNat < N) :
    IntOp.andi (IntOp.cmpi .sge w 0#32) (IntOp.cmpi .sle w (BitVec.ofNat 32 M)) = 1#1 := by
  have hMn : (BitVec.ofNat 32 M).toNat = M := by rw [BitVec.toNat_ofNat]; exact Nat.mod_eq_of_lt (by omega)
  rw [IntOp.andi_eq_one]
  constructor
  · rw [StableHlo.Predicate.sge_iff_toNat (by omega) (by decide)]; exact Nat.zero_le _
  · rw [StableHlo.Predicate.sle_iff_toNat (by omega) (by omega), hMn]; omega

/-- Conversely a word that passes the signed tests `0 ≤ w` and `w < N` has unsigned value below `N`: a non-negative
    signed value is the unsigned one. -/
theorem toNat_lt_of_tests (N : Nat) (hN : N < 2 ^ 31) (w : BitVec 32) (h0 : IntOp.cmpi .sge w 0#32 = 1#1)
    (h1 : IntOp.cmpi .slt w (BitVec.ofNat 32 N) = 1#1) : w.toNat < N := by
  rw [IntOp.cmpi_sge] at h0
  rw [IntOp.cmpi_slt, StableHlo.Predicate.toInt_ofNat_small N hN] at h1
  have hz : (0#32 : BitVec 32).toInt = 0 := by decide
  rw [hz] at h0
  have hc := BitVec.toInt_eq_toNat_cond w
  have hlt := w.isLt
  split at hc <;> omega

/-- A left fold by `and` from 1 over entries that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_ones f hf l

/-- An and-reduction, from the constant 1, of an array that is 1 everywhere is 1 at every result index. -/
theorem reduce_andi_ones {s t u : Shape} {axes : List (Fin s.rank)} (x : s.Idx → BitVec 1) (hx : ∀ i, x i = 1#1)
    (red : s.ReducesTo axes t) (hu : 0 < u.numel) (j : t.Idx) :
    Host.reduce IntOp.andi x (constantI u 1 1#1) red hu j = 1#1 := by
  rw [Host.reduce_eq_foldl]
  exact foldl_andi_ones x hx _

/-- The wrap of negative indices (add `N` where the word is negative) is the identity on an in-range array. -/
theorem wrap_eq (N : Nat) (hN : N < 2 ^ 31) (h : IVec ST 32) (hr : InRange N h) (b0 : S0.BroadcastsInDim ST (![] : Fin 0 → Fin ST.rank)) :
    select (cmpi .slt h (broadcastInDim ST ![] b0 (constantI S0 32 0#32)))
        (addi h (broadcastInDim ST ![] b0 (constantI S0 32 (BitVec.ofNat 32 N)))) h = h := by
  funext i
  rw [select_apply]
  have hc : cmpi .slt h (broadcastInDim ST ![] b0 (constantI S0 32 0#32)) i = 0#1 := slt_zero_of_lt N hN (h i) (hr.at i)
  rw [hc, select_zero]

/-- The range test of a filling take — `0 ≤ i` and `i ≤ N − 1` on the index column, and-reduced over the unit axis and
    laid along every batch row — is all ones on an in-range array (`M = N − 1`). -/
theorem fill_mask_ones (N M : Nat) (hM : M + 1 = N) (hN : N < 2 ^ 31) (h : IVec ST 32) (hr : InRange N h)
    (b1 : ST.BroadcastsInDim ST1 (![0] : Fin 1 → Fin ST1.rank)) (b2 : S0.BroadcastsInDim ST1 (![] : Fin 0 → Fin ST1.rank))
    (b3 : S1x1.BroadcastsInDim ST1 (![0, 1] : Fin 2 → Fin ST1.rank)) (b4 : S1.BroadcastsInDim S1x1 (![1] : Fin 1 → Fin S1x1.rank))
    (bT : ST.BroadcastsInDim SBT (![1] : Fin 1 → Fin SBT.rank)) (red : ST1.ReducesTo [1] ST) (hS : 0 < S0.numel) :
    broadcastInDim SBT ![1] bT
      (Host.reduce IntOp.andi
        (andi (cmpi .sge (broadcastInDim ST1 ![0] b1 h) (broadcastInDim ST1 ![] b2 (constantI S0 32 0#32)))
              (cmpi .sle (broadcastInDim ST1 ![0] b1 h)
                (broadcastInDim ST1 ![0, 1] b3 (broadcastInDim S1x1 ![1] b4 (constantI S1 32 (BitVec.ofNat 32 M))))))
        (constantI S0 1 1#1) red hS)
      = fun _ => 1#1 := by
  funext j
  refine reduce_andi_ones _ (fun i => ?_) red hS _
  exact range_bits N M hM hN _ (hr.at _)

/-- A select under an all-ones mask is its first branch. -/
theorem select_ones {s : Shape} {α : Type} (a b : s.Idx → α) : select (fun _ => 1#1) a b = a := by
  funext i; rw [select_apply]; exact select_one _ _

/-- What the precondition says of the three index arrays: heads and tails index 100000 entities, rels 500 relations. -/
theorem inRange_of_pre [Cert.Pre_finite_inputs.Facts] {F : FTy → Type} [FloatOps F]
    (a0 : FVec F Cert.Pre_finite_inputs.S16x3x500 .f32) (a1 : FVec F Cert.Pre_finite_inputs.S16x100000 .f32)
    (a2 a3 a4 : IVec Cert.Pre_finite_inputs.S3200000 32)
    (h : Cert.Pre_finite_inputs.fn (F := F) a0 a1 a2 a3 a4 = fun _ => 1#1) :
    InRange 100000 a2 ∧ InRange 500 a3 ∧ InRange 100000 a4 := by
  haveI : Subsingleton Cert.Pre_finite_inputs.S_.Idx := ⟨fun a b => funext fun d => d.elim0⟩
  have e := congrFun h ix0
  dsimp only [Cert.Pre_finite_inputs.fn, Cert.Pre_finite_inputs.fn_part1] at e
  -- the and-chain: (((floats ∧ heads) ∧ rels) ∧ tails)
  obtain ⟨e1, h4⟩ := IntOp.andi_eq_one.1 e
  obtain ⟨e2, h3⟩ := IntOp.andi_eq_one.1 e1
  obtain ⟨-, h2⟩ := IntOp.andi_eq_one.1 e2
  refine ⟨fun t => ?_, fun t => ?_, fun t => ?_⟩
  · obtain ⟨g0, g1⟩ := IntOp.andi_eq_one.1 (Host.reduce_andi_all _ _ _ _ _ h2 (ix1 t))
    exact toNat_lt_of_tests 100000 (by decide) _ g0 g1
  · obtain ⟨g0, g1⟩ := IntOp.andi_eq_one.1 (Host.reduce_andi_all _ _ _ _ _ h3 (ix1 t))
    exact toNat_lt_of_tests 500 (by decide) _ g0 g1
  · obtain ⟨g0, g1⟩ := IntOp.andi_eq_one.1 (Host.reduce_andi_all _ _ _ _ _ h4 (ix1 t))
    exact toNat_lt_of_tests 100000 (by decide) _ g0 g1

end Cert.Walk

end
-- ==== Proof.ScatterLaw.lean ====
/-
  A scatter-add of edge scores onto entities, read at one entry. With the tail index of edge `t` stored at
  `idx (t, 0)`, scattering a [batch, edge] array along the entity axis of a [batch, entity] array, and scattering the
  transposed [edge, batch] array along the entity axis of an [entity, batch] array, both add to entry (b, e) exactly the
  scores `(b, t)` of the edges `t` whose tail index is `e`; an edge whose index is outside [0, 100000) lands nowhere.
-/
import proofs.«415690_j12378095747627_3_alg».proof.Proof.Spec

noncomputable section

namespace Cert.Walk

open Idealize.ShloMosaic Idealize.ShloMosaic.ValueIdx

/-- Scatter along axis 1 (entities) of a [16, 100000] operand: update axis 0 is the window (batch), update axis 1 the edges. -/
abbrev colDims (wf : ScatterDims.WF SBE ST1 SBT [0] [1] [1] 1) : ScatterDims SBE ST1 SBT where
  updateWindowDims := [0]
  insertedWindowDims := [1]
  scatterDimsToOperandDims := [1]
  indexVectorDim := 1
  wf := wf

/-- Scatter along axis 0 (entities) of a [100000, 16] operand: update axis 1 is the window (batch), update axis 0 the edges. -/
abbrev rowDims (wf : ScatterDims.WF SEB ST1 STB [1] [0] [0] 1) : ScatterDims SEB ST1 STB where
  updateWindowDims := [1]
  insertedWindowDims := [0]
  scatterDimsToOperandDims := [0]
  indexVectorDim := 1
  wf := wf

/-- An update lands on `i` exactly when, on every operand axis, the window's start plus the window coordinate is
    `i`'s coordinate there (a sum outside the axis's range is the coordinate of no index). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro heq a
      have := Option.some.inj heq
      subst this
      have := h a
      simp only
      omega
    · intro hall
      congr 1
      funext a
      refine Fin.ext ?_
      have := hall a
      have := h a
      simp only
      omega
  · constructor
    · intro heq; cases heq
    · intro hall
      exfalso
      apply h
      intro a
      have := hall a
      have := (i a).isLt
      omega

/-! ### Scatter along the entity columns: starts and window coordinates, axis by axis -/

/-- The batch axis is not named by the index map: its start is 0. -/
theorem col_start0 (wf) (j : SBT.Idx) (idx : IVec ST1 32) : (colDims wf).start j idx 0 = 0 := by
  unfold ScatterDims.start
  rw [dif_neg (show (0 : Fin 2) ∉ ([1] : List (Fin 2)) by decide)]

/-- The entity axis is an inserted window axis: its window coordinate is 0. -/
theorem col_window1 (wf) (j : SBT.Idx) : (colDims wf).window j 1 = 0 := by
  unfold ScatterDims.window
  rw [dif_neg (show (1 : Fin 2) ∉ SBE.kept [1] by decide)]

/-- The batch axis carries the update's window coordinate, its batch row. -/
theorem col_window0 (wf) (b' : Fin 16) (t : Fin 3200000) : (colDims wf).window (ix2 b' t) 0 = b'.val := by
  unfold ScatterDims.window
  rw [dif_pos (show (0 : Fin 2) ∈ SBE.kept [1] by decide)]
  rfl

/-- The entity axis starts at the index word of the update's edge, read signed. -/
theorem col_start1 (wf) (b' : Fin 16) (t : Fin 3200000) (idx : IVec ST1 32) :
    (colDims wf).start (ix2 b' t) idx 1 = (idx (ix2 t (0 : Fin 1))).toInt := by
  unfold ScatterDims.start
  rw [dif_pos (show (1 : Fin 2) ∈ ([1] : List (Fin 2)) by decide)]
  congr 2
  funext b; refine Fin.ext ?_
  match b with
  | ⟨0, _⟩ => rfl
  | ⟨1, _⟩ => rfl

/-- Update (b', t) lands on (b, e) exactly when it is of batch row b and edge t's index word is e. -/
theorem col_resultIdx?_iff (wf) (idx : IVec ST1 32) (b' b : Fin 16) (t : Fin 3200000) (e : Fin 100000) :
    (colDims wf).resultIdx? (ix2 b' t) idx = some (ix2 b e)
      ↔ b' = b ∧ (idx (ix2 t (0 : Fin 1))).toInt = (e.val : Int) := by
  rw [resultIdx?_eq_some_iff]
  constructor
  · intro h
    have h0 := h 0
    have h1 := h 1
    rw [col_start0, col_window0] at h0
    rw [col_start1, col_window1] at h1
    have e0 : ((ix2 b e (0 : Fin 2)).val : Int) = (b.val : Int) := rfl
    have e1 : ((ix2 b e (1 : Fin 2)).val : Int) = (e.val : Int) := rfl
    refine ⟨Fin.ext ?_, ?_⟩
    · omega
    · omega
  · rintro ⟨rfl, he⟩ a
    match a with
    | ⟨0, _⟩ =>
      show (colDims wf).start _ idx 0 + (((colDims wf).window _ 0 : Nat) : Int) = ((b'.val : Nat) : Int)
      rw [col_start0, col_window0]
      omega
    | ⟨1, _⟩ =>
      show (colDims wf).start _ idx 1 + (((colDims wf).window _ 1 : Nat) : Int) = ((e.val : Nat) : Int)
      rw [col_start1, col_window1]
      omega

/-! ### Scatter along the entity rows: the same, with the two axes exchanged -/

/-- The batch axis is not named by the index map: its start is 0. -/
theorem row_start1 (wf) (j : STB.Idx) (idx : IVec ST1 32) : (rowDims wf).start j idx 1 = 0 := by
  unfold ScatterDims.start
  rw [dif_neg (show (1 : Fin 2) ∉ ([0] : List (Fin 2)) by decide)]

/-- The entity axis is an inserted window axis: its window coordinate is 0. -/
theorem row_window0 (wf) (j : STB.Idx) : (rowDims wf).window j 0 = 0 := by
  unfold ScatterDims.window
  rw [dif_neg (show (0 : Fin 2) ∉ SEB.kept [0] by decide)]

/-- The batch axis carries the update's window coordinate, its batch row. -/
theorem row_window1 (wf) (t : Fin 3200000) (b' : Fin 16) : (rowDims wf).window (ix2 t b') 1 = b'.val := by
  unfold ScatterDims.window
  rw [dif_pos (show (1 : Fin 2) ∈ SEB.kept [0] by decide)]
  rfl

/-- The entity axis starts at the index word of the update's edge, read signed. -/
theorem row_start0 (wf) (t : Fin 3200000) (b' : Fin 16) (idx : IVec ST1 32) :
    (rowDims wf).start (ix2 t b') idx 0 = (idx (ix2 t (0 : Fin 1))).toInt := by
  unfold ScatterDims.start
  rw [dif_pos (show (0 : Fin 2) ∈ ([0] : List (Fin 2)) by decide)]
  congr 2
  funext b; refine Fin.ext ?_
  match b with
  | ⟨0, _⟩ => rfl
  | ⟨1, _⟩ => rfl

/-- Update (t, b') lands on (e, b) exactly when it is of batch row b and edge t's index word is e. -/
theorem row_resultIdx?_iff (wf) (idx : IVec ST1 32) (b' b : Fin 16) (t : Fin 3200000) (e : Fin 100000) :
    (rowDims wf).resultIdx? (ix2 t b') idx = some (ix2 e b)
      ↔ b' = b ∧ (idx (ix2 t (0 : Fin 1))).toInt = (e.val : Int) := by
  rw [resultIdx?_eq_some_iff]
  constructor
  · intro h
    have h0 := h 0
    have h1 := h 1
    rw [row_start0, row_window0] at h0
    rw [row_start1, row_window1] at h1
    have e0 : ((ix2 e b (0 : Fin 2)).val : Int) = (e.val : Int) := rfl
    have e1 : ((ix2 e b (1 : Fin 2)).val : Int) = (b.val : Int) := rfl
    refine ⟨Fin.ext ?_, ?_⟩
    · omega
    · omega
  · rintro ⟨rfl, he⟩ a
    match a with
    | ⟨0, _⟩ =>
      show (rowDims wf).start _ idx 0 + (((rowDims wf).window _ 0 : Nat) : Int) = ((e.val : Nat) : Int)
      rw [row_start0, row_window0]
      omega
    | ⟨1, _⟩ =>
      show (rowDims wf).start _ idx 1 + (((rowDims wf).window _ 1 : Nat) : Int) = ((b'.val : Nat) : Int)
      rw [row_start1, row_window1]
      omega

theorem scatterAdd_cols_apply (wf : ScatterDims.WF SBE ST1 SBT [0] [1] [1] 1) (x : SBE.Idx → EReal) (idx : IVec ST1 32)
    (upd : SBT.Idx → EReal) (b : Fin 16) (e : Fin 100000) :
    Host.scatterAdd (F := Ideal) (φ := .f32) (colDims wf) x idx upd (ix2 b e)
      = x (ix2 b e) + ∑ t ∈ Finset.univ.filter (fun t : Fin 3200000 => (idx (ix2 t (0 : Fin 1))).toInt = (e.val : Int)), upd (ix2 b t) := by
  -- the filtered sum over update indices, written over (batch row, edge); only the row b contributes
  unfold Host.scatterAdd
  rw [Ideal.hostScatterAdd_def]
  unfold Ideal.hostScatterAdd
  rw [Finset.sum_filter, sum_idx2, Finset.sum_filter]
  simp only [col_resultIdx?_iff]
  rw [Finset.sum_eq_single b]
  · simp only [true_and]
  · intro a _ hne
    refine Finset.sum_eq_zero (fun t _ => ?_)
    rw [if_neg]
    rintro ⟨h, _⟩
    exact hne h
  · intro h
    exact absurd (Finset.mem_univ _) h

theorem scatterAdd_rows_apply (wf : ScatterDims.WF SEB ST1 STB [1] [0] [0] 1) (x : SEB.Idx → EReal) (idx : IVec ST1 32)
    (upd : STB.Idx → EReal) (e : Fin 100000) (b : Fin 16) :
    Host.scatterAdd (F := Ideal) (φ := .f32) (rowDims wf) x idx upd (ix2 e b)
      = x (ix2 e b) + ∑ t ∈ Finset.univ.filter (fun t : Fin 3200000 => (idx (ix2 t (0 : Fin 1))).toInt = (e.val : Int)), upd (ix2 t b) := by
  -- the filtered sum over update indices, written over (edge, batch row) and the two sums exchanged;
  -- only the row b contributes
  unfold Host.scatterAdd
  rw [Ideal.hostScatterAdd_def]
  unfold Ideal.hostScatterAdd
  rw [Finset.sum_filter, sum_idx2, Finset.sum_filter, Finset.sum_comm]
  simp only [row_resultIdx?_iff]
  rw [Finset.sum_eq_single b]
  · simp only [true_and]
  · intro a _ hne
    refine Finset.sum_eq_zero (fun t _ => ?_)
    rw [if_neg]
    rintro ⟨h, _⟩
    exact hne h
  · intro h
    exact absurd (Finset.mem_univ _) h

end Cert.Walk

end
-- ==== Proof.KernelHop.lean ====
/-
  One hop of the kernel program at the extended reals, on in-range index arrays: the filling takes are plain gathers
  (their range test is true at every edge), the wrap leaves the tail indices alone, and the scatter-add along the entity
  axis collects, at entity e of batch row b, the products of the edges whose tail is e.
-/
import proofs.«415690_j12378095747627_3_alg».proof.Proof.HostGlue
import proofs.«415690_j12378095747627_3_alg».proof.Proof.InRange
import proofs.«415690_j12378095747627_3_alg».proof.Proof.ScatterLaw
import Idealize.ShloMosaic.PureOps.Ideal.Laws

noncomputable section

namespace Cert.KernelIdeal.Hand

open Idealize.ShloMosaic Idealize.ShloMosaic.ValueIdx Cert.KernelIdeal Cert.KernelIdeal.Gen Cert.Walk

/-- On an in-range index array the wrap of negatives changes nothing. -/
theorem wrapIdx_eq (N : Nat) (hN : N < 2 ^ 31) (h : IVec S3200000 32) (hh : InRange N h) :
    wrapIdx (BitVec.ofNat 32 N) h = h := by
  unfold wrapIdx
  exact wrap_eq N hN h hh _

/-- On an in-range index array the range test `0 ≤ i ≤ N − 1` holds at every edge of every batch row. -/
theorem inMask_ones (N M : Nat) (hM : M + 1 = N) (hN : N < 2 ^ 31) (h : IVec S3200000 32) (hh : InRange N h) :
    inMask (BitVec.ofNat 32 M) (col h) = fun _ => 1#1 := by
  unfold inMask col
  exact fill_mask_ones N M hM hN h hh _ _ _ _ _ _ _

/-- The index column at row `t` is the index of edge `t`. -/
theorem col_apply (h : IVec S3200000 32) (t : Fin 3200000) : col h (ix2 t (0 : Fin 1)) = h (ix1 t) := by
  unfold col
  exact broadcastInDim_apply _ bcast_S3200000_S3200000x1_0 h _ (ix1 t) (fun a => match a with
    | ⟨0, _⟩ => by show t.val = if (3200000 : Nat) = 1 then 0 else t.val; rw [if_neg (by decide)])

/-- The scatter's operand is zero at every entry. -/
theorem zerosBE_apply (j : S16x100000.Idx) : zerosBE (F := Ideal) j = (0 : EReal) := by
  unfold zerosBE
  exact Ideal.ofBits_zero_f32

/-- On in-range head indices the filling take of the entity scores is the gather at the wrapped indices. -/
theorem takeE_eq (e : FVec Ideal S16x100000 .f32) (h : IVec S3200000 32) (hh : InRange 100000 h) :
    takeE (F := Ideal) e h = Host.gather gather_S16x100000_S3200000x1_S16x3200000_0_1_n_n_1_1_161 e (col (wrapIdx 100000#32 h)) := by
  unfold takeE
  rw [wrapIdx_eq 100000 (by decide) h hh, inMask_ones 100000 99999 rfl (by decide) h hh]
  exact select_ones _ _

/-- On in-range relation indices the filling take of the relation scores is the gather at the wrapped indices. -/
theorem takeR_eq (r : FVec Ideal S16x500 .f32) (h : IVec S3200000 32) (hh : InRange 500 h) :
    takeR (F := Ideal) r h = Host.gather gather_S16x500_S3200000x1_S16x3200000_0_1_n_n_1_1_161 r (col (wrapIdx 500#32 h)) := by
  unfold takeR
  rw [wrapIdx_eq 500 (by decide) h hh, inMask_ones 500 499 rfl (by decide) h hh]
  exact select_ones _ _

/-- One hop before normalizing, on in-range indices: entity e of row b collects the gathered products of the edges
    whose tail index is e. -/
theorem kwalk_eq (e : FVec Ideal S16x100000 .f32) (r : FVec Ideal S16x500 .f32) (h rl tl : IVec S3200000 32)
    (hh : InRange 100000 h) (hrl : InRange 500 rl) (htl : InRange 100000 tl) :
    kwalk (F := Ideal) e r h rl tl
      = walked (mulf (F := Ideal) (Host.gather gather_S16x100000_S3200000x1_S16x3200000_0_1_n_n_1_1_161 e (col (wrapIdx 100000#32 h)))
                       (Host.gather gather_S16x500_S3200000x1_S16x3200000_0_1_n_n_1_1_161 r (col (wrapIdx 500#32 rl)))) tl := by
  unfold kwalk
  rw [takeE_eq e h hh, takeR_eq r rl hrl, wrapIdx_eq 100000 (by decide) tl htl]
  funext i
  obtain ⟨b, n, rfl⟩ : ∃ (b : Fin 16) (n : Fin 100000), i = ix2 b n := ⟨i 0, i 1, eq_ix2 i⟩
  -- entry (b, n) of the scatter-add: the operand's entry, zero, plus the updates of the edges whose index word is n
  refine (scatterAdd_cols_apply scatter_S16x100000_S3200000x1_S16x3200000_0_1_1_1_wf _ _ _ b n).trans ?_
  rw [zerosBE_apply, zero_add]
  unfold walked
  refine Finset.sum_congr (Finset.filter_congr fun t _ => ?_) (fun t _ => rfl)
  rw [col_apply tl t]

end Cert.KernelIdeal.Hand

end
-- ==== Proof.RefValue.lean ====
/-
  The reference program's three hops at the extended reals. Each hop transposes the edge scores, scatter-adds them along
  the entity axis of an [entity, batch] array at the raw tail indices, transposes back, and divides by the row sum plus a
  constant. Read entry by entry this is: entity e of batch row b collects the scores of the edges whose tail index is e,
  and every entry is divided by its row's sum plus the constant.
-/
import proofs.«415690_j12378095747627_3_alg».proof.Proof.Gen.ReferenceIdeal.Read
import proofs.«415690_j12378095747627_3_alg».proof.Proof.Spec
import proofs.«415690_j12378095747627_3_alg».proof.Proof.ScatterLaw
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Cert.Walk

/-- A scatter-add onto a zero [entity, batch] array, at the tail indices written as one column, of the transposed
    edge scores, read at (e, b), is the walked array at (b, e). -/
theorem walked_of_scatter (wf : ScatterDims.WF SEB ST1 STB [1] [0] [0] 1) (S : SBT.Idx → EReal) (tl : IVec ST 32)
    (z : SEB.Idx → EReal) (I : IVec ST1 32) (Ut : STB.Idx → EReal)
    (hz : ∀ i, z i = 0) (hI : ∀ t : Fin 3200000, I (ix2 t (0 : Fin 1)) = tl (ix1 t))
    (hU : ∀ (t : Fin 3200000) (b : Fin 16), Ut (ix2 t b) = S (ix2 b t)) (b : Fin 16) (e : Fin 100000) :
    Host.scatterAdd (F := Ideal) (φ := .f32) (rowDims wf) z I Ut (ix2 e b) = walked S tl (ix2 b e) := by
  rw [scatterAdd_rows_apply, hz, zero_add]
  unfold walked
  show _ = ∑ t ∈ Finset.univ.filter (fun t : Fin 3200000 => (tl (ix1 t)).toInt = (e.val : Int)), S (ix2 b t)
  simp only [hI, hU]

/-- An array that is, entry by entry, the quotient of `w` by (zero plus its row sum) plus the constant is `normRows w`. -/
theorem normRows_of (w out : SBE.Idx → EReal)
    (h : ∀ (b : Fin 16) (e : Fin 100000), out (ix2 b e)
      = Ideal.div (w (ix2 b e)) ((0 + ∑ k : Fin 100000, w (ix2 b k)) + Ideal.ofBits .f32 0x358637BD#32)) :
    out = normRows w := by
  funext i
  obtain ⟨b, e, rfl⟩ : ∃ (b : Fin 16) (e : Fin 100000), i = ix2 b e := ⟨i 0, i 1, eq_ix2 i⟩
  rw [h, zero_add]
  rfl

variable (x0 : (⟨S16x3x500, .f32⟩ : BufTy).Contents (Elt Ideal)) (x1 : (⟨S16x100000, .f32⟩ : BufTy).Contents (Elt Ideal))
  (x2 x3 x4 : (⟨S3200000, .i32⟩ : BufTy).Contents (Elt Ideal))

/-- Hop 1: the transposed-back scatter result at (b, e) is the walked array of the hop's edge scores. -/
theorem walked1 (b : Fin 16) (e : Fin 100000) :
    val_main_v21 (F := Ideal) x0 x1 x2 x3 x4 (ix2 b e)
      = walked (val_main_v16 (F := Ideal) x0 x1 x2 x3) x4 (ix2 b e) := by
  rw [val_main_v21_apply]
  have hi : idx_main_v21 (ix2 b e) = ix2 e b := by
    funext a; match a with | ⟨0, _⟩ => rfl | ⟨1, _⟩ => rfl
  rw [hi]
  unfold val_main_v20
  refine walked_of_scatter _ _ _ _ _ _ ?_ ?_ ?_ b e
  · -- the operand is the zero array
    intro i
    rw [val_main_v18_apply, val_main_cst_apply]
    exact Ideal.ofBits_zero_f32
  · -- the index column at (t, 0) is the tail index of edge t
    intro t
    rw [val_main_v19_apply]
    exact congrArg x4 (funext fun a => by match a with | ⟨0, _⟩ => rfl)
  · -- the update at (t, b) is the score at (b, t)
    intro t b
    rw [val_main_v17_apply]
    exact congrArg (val_main_v16 (F := Ideal) x0 x1 x2 x3) (funext fun a => by match a with | ⟨0, _⟩ => rfl | ⟨1, _⟩ => rfl)

/-- Hop 2: the transposed-back scatter result at (b, e) is the walked array of the hop's edge scores. -/
theorem walked2 (b : Fin 16) (e : Fin 100000) :
    val_main_v49 (F := Ideal) x0 x1 x2 x3 x4 (ix2 b e)
      = walked (val_main_v44 (F := Ideal) x0 x1 x2 x3 x4) x4 (ix2 b e) := by
  rw [val_main_v49_apply]
  have hi : idx_main_v49 (ix2 b e) = ix2 e b := by
    funext a; match a with | ⟨0, _⟩ => rfl | ⟨1, _⟩ => rfl
  rw [hi]
  unfold val_main_v48
  refine walked_of_scatter _ _ _ _ _ _ ?_ ?_ ?_ b e
  · -- the operand is the zero array
    intro i
    rw [val_main_v46_apply, val_main_cst_9_apply]
    exact Ideal.ofBits_zero_f32
  · -- the index column at (t, 0) is the tail index of edge t
    intro t
    rw [val_main_v47_apply]
    exact congrArg x4 (funext fun a => by match a with | ⟨0, _⟩ => rfl)
  · -- the update at (t, b) is the score at (b, t)
    intro t b
    rw [val_main_v45_apply]
    exact congrArg (val_main_v44 (F := Ideal) x0 x1 x2 x3 x4) (funext fun a => by match a with | ⟨0, _⟩ => rfl | ⟨1, _⟩ => rfl)

/-- Hop 3: the transposed-back scatter result at (b, e) is the walked array of the hop's edge scores. -/
theorem walked3 (b : Fin 16) (e : Fin 100000) :
    val_main_v77 (F := Ideal) x0 x1 x2 x3 x4 (ix2 b e)
      = walked (val_main_v72 (F := Ideal) x0 x1 x2 x3 x4) x4 (ix2 b e) := by
  rw [val_main_v77_apply]
  have hi : idx_main_v77 (ix2 b e) = ix2 e b := by
    funext a; match a with | ⟨0, _⟩ => rfl | ⟨1, _⟩ => rfl
  rw [hi]
  unfold val_main_v76
  refine walked_of_scatter _ _ _ _ _ _ ?_ ?_ ?_ b e
  · -- the operand is the zero array
    intro i
    rw [val_main_v74_apply, val_main_cst_16_apply]
    exact Ideal.ofBits_zero_f32
  · -- the index column at (t, 0) is the tail index of edge t
    intro t
    rw [val_main_v75_apply]
    exact congrArg x4 (funext fun a => by match a with | ⟨0, _⟩ => rfl)
  · -- the update at (t, b) is the score at (b, t)
    intro t b
    rw [val_main_v73_apply]
    exact congrArg (val_main_v72 (F := Ideal) x0 x1 x2 x3 x4) (funext fun a => by match a with | ⟨0, _⟩ => rfl | ⟨1, _⟩ => rfl)

/-- Hop 1: the edge scores `val_main_v16` walked onto the tails, rows normalized. -/
theorem hop1 : val_main_v27 (F := Ideal) x0 x1 x2 x3 x4 = normRows (walked (val_main_v16 (F := Ideal) x0 x1 x2 x3) x4) := by
  refine normRows_of _ _ (fun b e => ?_)
  -- the row sum of row b: zero plus the sum of the walked array over the row
  have hrow : val_main_v22 (F := Ideal) x0 x1 x2 x3 x4 (ix1 b)
      = 0 + ∑ k : Fin 100000, walked (val_main_v16 (F := Ideal) x0 x1 x2 x3) x4 (ix2 b k) := by
    rw [val_main_v22_apply, val_main_cst_3_apply]
    show Ideal.ofBits .f32 0x00000000#32 + _ = _
    rw [Ideal.ofBits_zero_f32]
    refine congrArg (0 + ·) (Finset.sum_congr rfl fun k _ => ?_)
    rw [← walked1]
    exact congrArg (val_main_v21 (F := Ideal) x0 x1 x2 x3 x4) (funext fun a => by match a with | ⟨0, _⟩ => rfl | ⟨1, _⟩ => rfl)
  -- the denominator's index, through the two broadcasts, is row b
  have hb : idx_main_v23 (idx_main_v26 (ix2 b e)) = ix1 b := by
    funext a; match a with | ⟨0, _⟩ => rfl
  -- the denominator at (b, e): the row sum plus the constant
  have hden : val_main_v26 (F := Ideal) x0 x1 x2 x3 x4 (ix2 b e)
      = (0 + ∑ k : Fin 100000, walked (val_main_v16 (F := Ideal) x0 x1 x2 x3) x4 (ix2 b k))
        + Ideal.ofBits .f32 0x358637BD#32 := by
    rw [val_main_v26_apply, val_main_v25_apply, val_main_v23_apply, hb, hrow, val_main_v24_apply,
      val_main_cst_4_apply]
    rfl
  rw [val_main_v27_apply, walked1, hden]
  rfl

/-- Hop 2: the edge scores `val_main_v44`. -/
theorem hop2 : val_main_v55 (F := Ideal) x0 x1 x2 x3 x4 = normRows (walked (val_main_v44 (F := Ideal) x0 x1 x2 x3 x4) x4) := by
  refine normRows_of _ _ (fun b e => ?_)
  -- the row sum of row b: zero plus the sum of the walked array over the row
  have hrow : val_main_v50 (F := Ideal) x0 x1 x2 x3 x4 (ix1 b)
      = 0 + ∑ k : Fin 100000, walked (val_main_v44 (F := Ideal) x0 x1 x2 x3 x4) x4 (ix2 b k) := by
    rw [val_main_v50_apply, val_main_cst_10_apply]
    show Ideal.ofBits .f32 0x00000000#32 + _ = _
    rw [Ideal.ofBits_zero_f32]
    refine congrArg (0 + ·) (Finset.sum_congr rfl fun k _ => ?_)
    rw [← walked2]
    exact congrArg (val_main_v49 (F := Ideal) x0 x1 x2 x3 x4) (funext fun a => by match a with | ⟨0, _⟩ => rfl | ⟨1, _⟩ => rfl)
  -- the denominator's index, through the two broadcasts, is row b
  have hb : idx_main_v51 (idx_main_v54 (ix2 b e)) = ix1 b := by
    funext a; match a with | ⟨0, _⟩ => rfl
  -- the denominator at (b, e): the row sum plus the constant
  have hden : val_main_v54 (F := Ideal) x0 x1 x2 x3 x4 (ix2 b e)
      = (0 + ∑ k : Fin 100000, walked (val_main_v44 (F := Ideal) x0 x1 x2 x3 x4) x4 (ix2 b k))
        + Ideal.ofBits .f32 0x358637BD#32 := by
    rw [val_main_v54_apply, val_main_v53_apply, val_main_v51_apply, hb, hrow, val_main_v52_apply,
      val_main_cst_11_apply]
    rfl
  rw [val_main_v55_apply, walked2, hden]
  rfl

/-- Hop 3: the edge scores `val_main_v72`. -/
theorem hop3 : val_main_v83 (F := Ideal) x0 x1 x2 x3 x4 = normRows (walked (val_main_v72 (F := Ideal) x0 x1 x2 x3 x4) x4) := by
  refine normRows_of _ _ (fun b e => ?_)
  -- the row sum of row b: zero plus the sum of the walked array over the row
  have hrow : val_main_v78 (F := Ideal) x0 x1 x2 x3 x4 (ix1 b)
      = 0 + ∑ k : Fin 100000, walked (val_main_v72 (F := Ideal) x0 x1 x2 x3 x4) x4 (ix2 b k) := by
    rw [val_main_v78_apply, val_main_cst_17_apply]
    show Ideal.ofBits .f32 0x00000000#32 + _ = _
    rw [Ideal.ofBits_zero_f32]
    refine congrArg (0 + ·) (Finset.sum_congr rfl fun k _ => ?_)
    rw [← walked3]
    exact congrArg (val_main_v77 (F := Ideal) x0 x1 x2 x3 x4) (funext fun a => by match a with | ⟨0, _⟩ => rfl | ⟨1, _⟩ => rfl)
  -- the denominator's index, through the two broadcasts, is row b
  have hb : idx_main_v79 (idx_main_v82 (ix2 b e)) = ix1 b := by
    funext a; match a with | ⟨0, _⟩ => rfl
  -- the denominator at (b, e): the row sum plus the constant
  have hden : val_main_v82 (F := Ideal) x0 x1 x2 x3 x4 (ix2 b e)
      = (0 + ∑ k : Fin 100000, walked (val_main_v72 (F := Ideal) x0 x1 x2 x3 x4) x4 (ix2 b k))
        + Ideal.ofBits .f32 0x358637BD#32 := by
    rw [val_main_v82_apply, val_main_v81_apply, val_main_v79_apply, hb, hrow, val_main_v80_apply,
      val_main_cst_18_apply]
    rfl
  rw [val_main_v83_apply, walked3, hden]
  rfl

end Cert.ReferenceIdeal.RefValue

end
-- ==== Proof.Bridge.lean ====
/-
  The two programs compute one function of the argument arrays. A hop of the kernel program is the walk of the gathered
  edge scores, rows normalized; the reference's hop is the same function of the same gathered scores. Chaining three
  hops from the initial entity scores and laying the four distributions side by side gives the reference's result.
-/
import proofs.«415690_j12378095747627_3_alg».proof.Proof.KernelHop
import proofs.«415690_j12378095747627_3_alg».proof.Proof.RefValue

noncomputable section

namespace Cert.KernelIdeal.Hand

open Idealize.ShloMosaic Idealize.ShloMosaic.ValueIdx Cert.Walk
open Cert.ReferenceIdeal.Read Cert.ReferenceIdeal.RefValue

/-- One hop of the kernel program: the walk, rows normalized. -/
def khop (rel : FVec Ideal Cert.KernelIdeal.S16x500 .f32) (e : FVec Ideal Cert.KernelIdeal.S16x100000 .f32)
    (h rl tl : IVec Cert.KernelIdeal.S3200000 32) : FVec Ideal Cert.KernelIdeal.S16x100000 .f32 :=
  normRows (kwalk (F := Ideal) e rel h rl tl)

variable (x0 : FVec Ideal Cert.KernelIdeal.S16x3x500 .f32) (x1 : FVec Ideal Cert.KernelIdeal.S16x100000 .f32)
  (h rl tl : IVec Cert.KernelIdeal.S3200000 32)

/-- A hop on in-range indices: the walk of the gathered products, rows normalized. -/
theorem khop_eq (rel : FVec Ideal Cert.KernelIdeal.S16x500 .f32) (e : FVec Ideal Cert.KernelIdeal.S16x100000 .f32)
    (hh : InRange 100000 h) (hrl : InRange 500 rl) (htl : InRange 100000 tl) :
    khop rel e h rl tl
      = normRows (walked (mulf (F := Ideal) (Host.gather Cert.KernelIdeal.gather_S16x100000_S3200000x1_S16x3200000_0_1_n_n_1_1_161 e (col (wrapIdx 100000#32 h)))
                                 (Host.gather Cert.KernelIdeal.gather_S16x500_S3200000x1_S16x3200000_0_1_n_n_1_1_161 rel (col (wrapIdx 500#32 rl)))) tl) := by
  unfold khop
  rw [kwalk_eq e rel h rl tl hh hrl htl]

/-! The two programs spell the same small terms: the relation slices and the wrapped index columns of the three hops. -/

theorem relRow0_eq : relRow0 x0 = val_main_v1 (F := Ideal) x0 := rfl
theorem relRow1_eq : relRow1 x0 = val_main_v29 (F := Ideal) x0 := rfl
theorem relRow2_eq : relRow2 x0 = val_main_v57 (F := Ideal) x0 := rfl
theorem colE1_eq : col (wrapIdx 100000#32 h) = val_main_v7 (F := Ideal) h := rfl
theorem colR1_eq : col (wrapIdx 500#32 rl) = val_main_v14 (F := Ideal) rl := rfl
theorem colE2_eq : col (wrapIdx 100000#32 h) = val_main_v35 (F := Ideal) h := rfl
theorem colR2_eq : col (wrapIdx 500#32 rl) = val_main_v42 (F := Ideal) rl := rfl
theorem colE3_eq : col (wrapIdx 100000#32 h) = val_main_v63 (F := Ideal) h := rfl
theorem colR3_eq : col (wrapIdx 500#32 rl) = val_main_v70 (F := Ideal) rl := rfl

/-- The gathers of the two programs read by the same dimension numbers. -/
theorem gatherE_eq (e : FVec Ideal Cert.KernelIdeal.S16x100000 .f32) (c : IVec Cert.KernelIdeal.S3200000x1 32) :
    Host.gather Cert.KernelIdeal.gather_S16x100000_S3200000x1_S16x3200000_0_1_n_n_1_1_161 e c
      = Host.gather Cert.ReferenceIdeal.gather_S16x100000_S3200000x1_S16x3200000_0_1_n_n_1_1_161 e c := rfl
theorem gatherR_eq (r : FVec Ideal Cert.KernelIdeal.S16x500 .f32) (c : IVec Cert.KernelIdeal.S3200000x1 32) :
    Host.gather Cert.KernelIdeal.gather_S16x500_S3200000x1_S16x3200000_0_1_n_n_1_1_161 r c
      = Host.gather Cert.ReferenceIdeal.gather_S16x500_S3200000x1_S16x3200000_0_1_n_n_1_1_161 r c := rfl

/-- Hop 1's edge scores. -/
theorem score1 :
    mulf (F := Ideal) (Host.gather Cert.KernelIdeal.gather_S16x100000_S3200000x1_S16x3200000_0_1_n_n_1_1_161 x1 (col (wrapIdx 100000#32 h)))
        (Host.gather Cert.KernelIdeal.gather_S16x500_S3200000x1_S16x3200000_0_1_n_n_1_1_161 (relRow0 x0) (col (wrapIdx 500#32 rl)))
      = val_main_v16 (F := Ideal) x0 x1 h rl := by
  rw [gatherE_eq, gatherR_eq, relRow0_eq, colE1_eq, colR1_eq]
  rfl

/-- Hop 2's edge scores, from hop 1's result. -/
theorem score2 :
    mulf (F := Ideal) (Host.gather Cert.KernelIdeal.gather_S16x100000_S3200000x1_S16x3200000_0_1_n_n_1_1_161 (val_main_v27 (F := Ideal) x0 x1 h rl tl) (col (wrapIdx 100000#32 h)))
        (Host.gather Cert.KernelIdeal.gather_S16x500_S3200000x1_S16x3200000_0_1_n_n_1_1_161 (relRow1 x0) (col (wrapIdx 500#32 rl)))
      = val_main_v44 (F := Ideal) x0 x1 h rl tl := by
  rw [gatherE_eq, gatherR_eq, relRow1_eq, colE2_eq, colR2_eq]
  rfl

/-- Hop 3's edge scores, from hop 2's result. -/
theorem score3 :
    mulf (F := Ideal) (Host.gather Cert.KernelIdeal.gather_S16x100000_S3200000x1_S16x3200000_0_1_n_n_1_1_161 (val_main_v55 (F := Ideal) x0 x1 h rl tl) (col (wrapIdx 100000#32 h)))
        (Host.gather Cert.KernelIdeal.gather_S16x500_S3200000x1_S16x3200000_0_1_n_n_1_1_161 (relRow2 x0) (col (wrapIdx 500#32 rl)))
      = val_main_v72 (F := Ideal) x0 x1 h rl tl := by
  rw [gatherE_eq, gatherR_eq, relRow2_eq, colE3_eq, colR3_eq]
  rfl

/-- The four distributions side by side, in the two programs' spellings. -/
theorem stack4_eq (a b c : FVec Ideal Cert.KernelIdeal.S16x100000 .f32)
    (ha : a = val_main_v27 (F := Ideal) x0 x1 h rl tl) (hb : b = val_main_v55 (F := Ideal) x0 x1 h rl tl)
    (hc : c = val_main_v83 (F := Ideal) x0 x1 h rl tl) :
    stack4 (F := Ideal) x1 a b c = val_main_v88 (F := Ideal) x0 x1 h rl tl := by
  subst ha hb hc
  rfl

/-- Three hops from the initial entity scores, stacked with them, are the reference's result at the same arguments
    (the index arrays in range). -/
theorem three_hops (hh : InRange 100000 h) (hrl : InRange 500 rl) (htl : InRange 100000 tl) :
    stack4 (F := Ideal) x1
        (khop (relRow0 x0) x1 h rl tl)
        (khop (relRow1 x0) (khop (relRow0 x0) x1 h rl tl) h rl tl)
        (khop (relRow2 x0) (khop (relRow1 x0) (khop (relRow0 x0) x1 h rl tl) h rl tl) h rl tl)
      = val_main_v88 (F := Ideal) x0 x1 h rl tl := by
  -- each hop of the kernel program is the reference's stage of the same number
  have k1 : khop (relRow0 x0) x1 h rl tl = val_main_v27 (F := Ideal) x0 x1 h rl tl := by
    rw [khop_eq h rl tl _ _ hh hrl htl, score1, ← hop1]
  have k2 : khop (relRow1 x0) (val_main_v27 (F := Ideal) x0 x1 h rl tl) h rl tl = val_main_v55 (F := Ideal) x0 x1 h rl tl := by
    rw [khop_eq h rl tl _ _ hh hrl htl, score2, ← hop2]
  have k3 : khop (relRow2 x0) (val_main_v55 (F := Ideal) x0 x1 h rl tl) h rl tl = val_main_v83 (F := Ideal) x0 x1 h rl tl := by
    rw [khop_eq h rl tl _ _ hh hrl htl, score3, ← hop3]
  rw [k1, k2, k3]
  exact stack4_eq x0 x1 h rl tl _ _ _ rfl rfl rfl

end Cert.KernelIdeal.Hand

end
-- ==== Proof.Final.lean ====
/-
  The kernel program's result at the extended reals, on in-range index arrays, is the reference's result at the same
  arguments: each launch leaves its input array with rows normalized, the input array is one hop's walk, so launch k
  leaves hop k of the chain, and the stacked result is the chain of three hops the reference computes.
-/
import proofs.«415690_j12378095747627_3_alg».proof.Proof.GlueChain
import proofs.«415690_j12378095747627_3_alg».proof.Proof.NormValue0
import proofs.«415690_j12378095747627_3_alg».proof.Proof.NormValue1
import proofs.«415690_j12378095747627_3_alg».proof.Proof.NormValue2
import proofs.«415690_j12378095747627_3_alg».proof.Proof.Bridge

set_option maxRecDepth 16384

noncomputable section

namespace Cert.KernelIdeal.Hand

open Idealize.ShloMosaic Idealize.ShloMosaic.TcCoe Idealize.SL.Sem
open Cert.KernelIdeal Cert.KernelIdeal.Gen Cert.Walk

variable (m : (ℓ : Loc nD τ sig) → Buf (Elt Ideal) ℓ)

/-- Launch 0 leaves hop 0 of the initial entity scores. -/
theorem left0_val (c : Dev nD) :
    left0 m c = khop (relRow0 (m ((c : Thread nD τ).loc main_arg0))) (m ((c : Thread nD τ).loc main_arg1)) (m ((c : Thread nD τ).loc main_arg2)) (m ((c : Thread nD τ).loc main_arg3)) (m ((c : Thread nD τ).loc main_arg4)) := by
  refine (left0_eq (tcv (B4 m)) c).trans ?_
  show normRows (B4 m c (Proc.devRef .tc main_v12)) = _
  rw [walk0]
  rfl

/-- Launch 1 leaves hop 1 of what launch 0 left. -/
theorem left1_val (c : Dev nD) :
    left1 m c = khop (relRow1 (m ((c : Thread nD τ).loc main_arg0))) (left0 m c) (m ((c : Thread nD τ).loc main_arg2)) (m ((c : Thread nD τ).loc main_arg3)) (m ((c : Thread nD τ).loc main_arg4)) := by
  refine (left1_eq (tcv (B9 m)) c).trans ?_
  show normRows (B9 m c (Proc.devRef .tc main_v26)) = _
  rw [walk1]
  rfl

/-- Launch 2 leaves hop 2 of what launch 1 left. -/
theorem left2_val (c : Dev nD) :
    left2 m c = khop (relRow2 (m ((c : Thread nD τ).loc main_arg0))) (left1 m c) (m ((c : Thread nD τ).loc main_arg2)) (m ((c : Thread nD τ).loc main_arg3)) (m ((c : Thread nD τ).loc main_arg4)) := by
  refine (left2_eq (tcv (B14 m)) c).trans ?_
  show normRows (B14 m c (Proc.devRef .tc main_v40)) = _
  rw [walk2]
  rfl

/-- The result buffer ends at the reference's result of the launch arguments. -/
theorem result_eq (c : Dev nD) (hh : InRange 100000 (m ((c : Thread nD τ).loc main_arg2))) (hrl : InRange 500 (m ((c : Thread nD τ).loc main_arg3)))
    (htl : InRange 100000 (m ((c : Thread nD τ).loc main_arg4))) :
    B16 m c (Proc.devRef .tc main_v46)
      = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [stack_read, left2_val, left1_val, left0_val]
  exact three_hops _ _ _ _ _ hh hrl htl

end Cert.KernelIdeal.Hand

end
-- ==== Proof.lean ====
/-
  The certificate of a three-hop walk over a knowledge graph: per hop, entity scores gathered at the edges' head
  indices times relation scores gathered at their relation indices are summed onto the edges' tail entities, and every
  batch row is divided by its sum plus a constant; the result stacks the initial scores and the three hops. The kernel
  program does the row normalization in a pipelined kernel over two blocks of eight rows and the rest on the host; the
  reference does all of it on the host, scattering the transposed scores. Under the precondition — finite float inputs
  and every index inside the axis it indexes — both programs run, leave their arguments unchanged, and end with equal
  results over the extended reals: the kernel's range-checked takes are plain gathers, the two scatters add the same
  edges onto the same entities, and a row's sum lies inside its block.
-/
import proofs.«415690_j12378095747627_3_alg».proof.Defs
import proofs.«415690_j12378095747627_3_alg».proof.Proof.WalkRunBits
import proofs.«415690_j12378095747627_3_alg».proof.Proof.WalkRunIdeal
import proofs.«415690_j12378095747627_3_alg».proof.Proof.Final
import proofs.«415690_j12378095747627_3_alg».proof.Proof.Gen.ReferenceIdeal.Run
import proofs.«415690_j12378095747627_3_alg».proof.Proof.Gen.Pre_finite_inputs

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Hand.run (F := Bits) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Hand.run (F := Ideal) m ρ)

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

/-- From memories agreeing on the arguments both programs end at the reference's result of those arguments: the
    kernel program's by its run and the value of its result buffer, the reference's by its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.B16 m c Cert.KernelIdeal.main_v46, Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨hh, hrl, htl⟩ := Cert.Walk.inRange_of_pre _ _ _ _ _ (hpre c)
  rw [Cert.ReferenceIdeal.Read.val_main_v88_eq, (hagree c).1, (hagree c).2.1, (hagree c).2.2.1, (hagree c).2.2.2.1, (hagree c).2.2.2.2]
  exact (Cert.KernelIdeal.Hand.result_eq m c hh hrl htl).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
